-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x2 : Shape := ⟨2, ![65536, 2]⟩
abbrev S1000000x128 : Shape := ⟨2, ![1000000, 128]⟩
abbrev S256x128 : Shape := ⟨2, ![256, 128]⟩
abbrev S256 : Shape := ⟨1, ![256]⟩
abbrev S64x256 : Shape := ⟨2, ![64, 256]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_
  bcast_S_S65536x2 : S_.BroadcastsInDim S65536x2 (![] : Fin 0 → Fin S65536x2.rank)
  reducesTo_S65536x2_S_d0_1 : S65536x2.ReducesTo [0, 1] S_

variable [Facts]

def fn_part2 {F : FTy → Type} [FloatOps F] (main_arg0 : IVec S65536x2 32) (main_arg8 : FVec F S2x64 .f32) (main_arg9 : FVec F S2 .f32) (main_v33 : IVec S_ 1) : IVec S_ 1 :=
  let main_v34 : FVec F S2x64 .f32 := Host.absf main_arg8
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_c_16 : IVec S_ 32 := constantI S_ 32 0#32
  let main_v44 : IVec S65536x2 32 := broadcastInDim S65536x2 ![] bcast_S_S65536x2 main_c_16
  let main_v45 : IVec S65536x2 1 := cmpi .sge main_arg0 main_v44
  let main_c_17 : IVec S_ 1 := constantI S_ 1 1#1
  let main_v46 : IVec S_ 1 := (fun x v => Host.reduce IntOp.andi x v reducesTo_S65536x2_S_d0_1 h_S_) main_v45 main_c_17
  let main_v47 : IVec S_ 1 := andi main_v43 main_v46
  main_v47

def fn_part1 {F : FTy → Type} [FloatOps F] (main_arg0 : IVec S65536x2 32) (main_arg5 : FVec F S64x256 .f32) (main_arg6 : FVec F S64 .f32) (main_arg7 : FVec F S64x256 .f32) (main_arg8 : FVec F S2x64 .f32) (main_arg9 : FVec F S2 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S64x256 .f32 := Host.absf main_arg5
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x256 .f32 := Host.absf main_arg7
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  fn_part2 (F := F) main_arg0 main_arg8 main_arg9 main_v33

def fn {F : FTy → Type} [FloatOps F] (main_arg0 : IVec S65536x2 32) (main_arg1 : FVec F S1000000x128 .f32) (main_arg2 : FVec F S256x128 .f32) (main_arg3 : FVec F S256 .f32) (main_arg4 : FVec F S256x128 .f32) (main_arg5 : FVec F S64x256 .f32) (main_arg6 : FVec F S64 .f32) (main_arg7 : FVec F S64x256 .f32) (main_arg8 : FVec F S2x64 .f32) (main_arg9 : FVec F S2 .f32) : IVec S_ 1 :=
  let main_v0 : FVec F S1000000x128 .f32 := Host.absf main_arg1
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg0 main_arg5 main_arg6 main_arg7 main_arg8 main_arg9 main_v13 main_v16
-- ==== Kernel.lean ====
abbrev S65536x2 : Shape := ⟨2, ![65536, 2]⟩
abbrev S1000000x128 : Shape := ⟨2, ![1000000, 128]⟩
abbrev S256x128 : Shape := ⟨2, ![256, 128]⟩
abbrev S256 : Shape := ⟨1, ![256]⟩
abbrev S64x256 : Shape := ⟨2, ![64, 256]⟩
abbrev S64 : Shape := ⟨1, ![64]⟩
abbrev S2x64 : Shape := ⟨2, ![2, 64]⟩
abbrev S2 : Shape := ⟨1, ![2]⟩
abbrev S_ : Shape := ⟨0, ![]⟩
abbrev S65536x1 : Shape := ⟨2, ![65536, 1]⟩
abbrev S65536 : Shape := ⟨1, ![65536]⟩
abbrev S65536x128 : Shape := ⟨2, ![65536, 128]⟩
abbrev S128x256 : Shape := ⟨2, ![128, 256]⟩
abbrev S256x64 : Shape := ⟨2, ![256, 64]⟩
abbrev S64x2 : Shape := ⟨2, ![64, 2]⟩
abbrev S4096x128 : Shape := ⟨2, ![4096, 128]⟩
abbrev S4096x2 : Shape := ⟨2, ![4096, 2]⟩
abbrev S4096x256 : Shape := ⟨2, ![4096, 256]⟩
abbrev S1x256 : Shape := ⟨2, ![1, 256]⟩
abbrev S4096x64 : Shape := ⟨2, ![4096, 64]⟩
abbrev S1x64 : Shape := ⟨2, ![1, 64]⟩
abbrev S1x2 : Shape := ⟨2, ![1, 2]⟩

abbrev nBuf : Space → Nat
  | .hbm => 49
  | .vmem => 12
  | .smem => 0
  | _ => 0

abbrev bufTy : (tb : Table) → Fin (tcTables nBuf tb) → BufTy
  | .hbm, ⟨0, _⟩ => ⟨S65536x2, .i32⟩
  | .hbm, ⟨1, _⟩ => ⟨S1000000x128, .f32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S64x256, .f32⟩
  | .hbm, ⟨6, _⟩ => ⟨S64, .f32⟩
  | .hbm, ⟨7, _⟩ => ⟨S64x256, .f32⟩
  | .hbm, ⟨8, _⟩ => ⟨S2x64, .f32⟩
  | .hbm, ⟨9, _⟩ => ⟨S2, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S65536x2, .i32⟩
  | .hbm, ⟨14, _⟩ => ⟨S65536x2, .i32⟩
  | .hbm, ⟨15, _⟩ => ⟨S_, .i32⟩
  | .hbm, ⟨16, _⟩ => ⟨S65536x2, .i32⟩
  | .hbm, ⟨17, _⟩ => ⟨S65536x2, .i32⟩
  | .hbm, ⟨18, _⟩ => ⟨S65536x1, .i32⟩
  | .hbm, ⟨19, _⟩ => ⟨S65536, .i32⟩
  | .hbm, ⟨20, _⟩ => ⟨S65536x1, .i32⟩
  | .hbm, ⟨21, _⟩ => ⟨S65536, .i32⟩
  | .hbm, ⟨22, _⟩ => ⟨S_, .i32⟩
  | .hbm, ⟨23, _⟩ => ⟨S65536, .i32⟩
  | .hbm, ⟨24, _⟩ => ⟨S65536, .i1⟩
  | .hbm, ⟨25, _⟩ => ⟨S_, .i32⟩
  | .hbm, ⟨26, _⟩ => ⟨S65536, .i32⟩
  | .hbm, ⟨27, _⟩ => ⟨S65536, .i32⟩
  | .hbm, ⟨28, _⟩ => ⟨S65536, .i32⟩
  | .hbm, ⟨29, _⟩ => ⟨S65536x1, .i32⟩
  | .hbm, ⟨30, _⟩ => ⟨S65536x128, .f32⟩
  | .hbm, ⟨31, _⟩ => ⟨S_, .i32⟩
  | .hbm, ⟨32, _⟩ => ⟨S65536, .i32⟩
  | .hbm, ⟨33, _⟩ => ⟨S65536, .i1⟩
  | .hbm, ⟨34, _⟩ => ⟨S_, .i32⟩
  | .hbm, ⟨35, _⟩ => ⟨S65536, .i32⟩
  | .hbm, ⟨36, _⟩ => ⟨S65536, .i32⟩
  | .hbm, ⟨37, _⟩ => ⟨S65536, .i32⟩
  | .hbm, ⟨38, _⟩ => ⟨S65536x1, .i32⟩
  | .hbm, ⟨39, _⟩ => ⟨S65536x128, .f32⟩
  | .hbm, ⟨40, _⟩ => ⟨S256x128, .f32⟩
  | .hbm, ⟨41, _⟩ => ⟨S128x256, .f32⟩
  | .hbm, ⟨42, _⟩ => ⟨S128x256, .bf16⟩
  | .hbm, ⟨43, _⟩ => ⟨S64x256, .f32⟩
  | .hbm, ⟨44, _⟩ => ⟨S256x64, .f32⟩
  | .hbm, ⟨45, _⟩ => ⟨S256x64, .bf16⟩
  | .hbm, ⟨46, _⟩ => ⟨S64x2, .f32⟩
  | .hbm, ⟨47, _⟩ => ⟨S64x2, .bf16⟩
  | .hbm, ⟨48, _⟩ => ⟨S65536x2, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S128x256, .bf16⟩
  | .local _ .vmem, ⟨5, _⟩ => ⟨S256, .f32⟩
  | .local _ .vmem, ⟨6, _⟩ => ⟨S256x64, .bf16⟩
  | .local _ .vmem, ⟨7, _⟩ => ⟨S64, .f32⟩
  | .local _ .vmem, ⟨8, _⟩ => ⟨S64x2, .bf16⟩
  | .local _ .vmem, ⟨9, _⟩ => ⟨S2, .f32⟩
  | .local _ .vmem, ⟨10, _⟩ => ⟨S4096x2, .f32⟩
  | .local _ .vmem, ⟨11, _⟩ => ⟨S4096x2, .f32⟩
  | _, _ => ⟨S65536x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c_1 : Ref sig .tc := ⟨.hbm, 22, rfl⟩
abbrev main_v5 : Ref sig .tc := ⟨.hbm, 23, rfl⟩
abbrev main_v6 : Ref sig .tc := ⟨.hbm, 24, rfl⟩
abbrev main_c_2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_3 : Ref sig .tc := ⟨.hbm, 31, rfl⟩
abbrev main_v12 : Ref sig .tc := ⟨.hbm, 32, rfl⟩
abbrev main_v13 : Ref sig .tc := ⟨.hbm, 33, rfl⟩
abbrev main_c_4 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x2 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S65536x2 : S_.BroadcastsInDim S65536x2 (![] : Fin 0 → Fin S65536x2.rank)
  slices_S65536x2_S65536x1_0_0 : S65536x2.Slices ![0, 0] S65536x1
  shapeCasts_S65536x1_S65536 : S65536x1.ShapeCasts S65536
  slices_S65536x2_S65536x1_0_1 : S65536x2.Slices ![0, 1] S65536x1
  bcast_S_S65536 : S_.BroadcastsInDim S65536 (![] : Fin 0 → Fin S65536.rank)
  bcast_S65536_S65536x1_0 : S65536.BroadcastsInDim S65536x1 (![0] : Fin 1 → Fin S65536x1.rank)
  transposes_S256x128_S128x256_1_0 : S256x128.Transposes [1, 0] S128x256
  bitsLt_bf16_f32 : FTy.bits .bf16 < FTy.bits .f32
  transposes_S64x256_S256x64_1_0 : S64x256.Transposes [1, 0] S256x64
  transposes_S2x64_S64x2_1_0 : S2x64.Transposes [1, 0] S64x2
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S2_S2_0 : ∀ a, (![0] : Fin 1 → Nat) a + S2.size a ≤ S2.size a
  h_S2 : 0 < S2.numel
  shapeCasts_S2_S1x2 : S2.ShapeCasts S1x2
  broadcasts_S1x2_S4096x2 : S1x2.Broadcasts S4096x2
  inb_S4096x2_S4096x2_0_0 : ∀ a, (![0, 0] : Fin 2 → Nat) a + S4096x2.size a ≤ S4096x2.size a
  h_S4096x2 : 0 < S4096x2.numel
  gather_S1000000x128_S65536x1_S65536x128_1_0_n_n_0_1_1128_wf : GatherDims.WF S1000000x128 S65536x1 S65536x128 [1] [0] [] [0] [] 1 ![1, 128]
  dot_S4096x128_S128x256_S4096x256_1_0_0_1_n_n_wf : DotDims.WF S4096x128 S128x256 S4096x256 [1] [0] [0] [1] [] []
  dot_S4096x256_S256x64_S4096x64_1_0_0_1_n_n_wf : DotDims.WF S4096x256 S256x64 S4096x64 [1] [0] [0] [1] [] []
  dot_S4096x64_S64x2_S4096x2_1_0_0_1_n_n_wf : DotDims.WF S4096x64 S64x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S65536x128.size a
  hwx0_1 : ∀ i : grid0.Coords, EltTy.bits .f32 = 32 ∨ (Rect.block (s := S65536x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .bf16 = 32 ∨ (Rect.block (s := S256x64) S256x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x2.size a ≤ S64x2.size a
  hwx0_6 : ∀ i : grid0.Coords, EltTy.bits .bf16 = 32 ∨ (Rect.block (s := S64x2) S64x2.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2.size a ≤ S2.size a
  hwx0_7 : ∀ i : grid0.Coords, EltTy.bits .f32 = 32 ∨ (Rect.block (s := S2) S2.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x2.size a ≤ S65536x2.size a
  hwx0_8 : ∀ i : grid0.Coords, EltTy.bits .f32 = 32 ∨ (Rect.block (s := S65536x2) S4096x2.size (cc0_transform_8 i) (hinb0_8 i)).WholeWords (EltTy.packing .f32)

variable [Facts₀]

def gather_S1000000x128_S65536x1_S65536x128_1_0_n_n_0_1_1128 : GatherDims S1000000x128 S65536x1 S65536x128 where
  offsetDims := [1]
  collapsedSliceDims := [0]
  operandBatchingDims := []
  startIndicesBatchingDims := []
  startIndexMap := [0]
  indexVectorDim := 1
  sliceSizes := ![1, 128]
  wf := gather_S1000000x128_S65536x1_S65536x128_1_0_n_n_0_1_1128_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S4096x64_S64x2_S4096x2_1_0_0_1_n_n : DotDims S4096x64 S64x2 S4096x2 where
  lhsContracting := [1]
  rhsContracting := [0]
  lhsNonContracting := [0]
  rhsNonContracting := [1]
  lhsBatch := []
  rhsBatch := []
  wf := dot_S4096x64_S64x2_S4096x2_1_0_0_1_n_n_wf

abbrev win0_0 : Pipeline.Window sig grid0 :=
  Pipeline.Window.ofSpec (Memref.whole main_v11) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S64x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S4096x2.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x2 : Shape := ⟨2, ![65536, 2]⟩
abbrev S1000000x128 : Shape := ⟨2, ![1000000, 128]⟩
abbrev S256x128 : Shape := ⟨2, ![256, 128]⟩
abbrev S256 : Shape := ⟨1, ![256]⟩
abbrev S64x256 : Shape := ⟨2, ![64, 256]⟩
abbrev S64 : Shape := ⟨1, ![64]⟩
abbrev S2x64 : Shape := ⟨2, ![2, 64]⟩
abbrev S2 : Shape := ⟨1, ![2]⟩
abbrev S_ : Shape := ⟨0, ![]⟩
abbrev S65536x2x1 : Shape := ⟨3, ![65536, 2, 1]⟩
abbrev S65536x2x128 : Shape := ⟨3, ![65536, 2, 128]⟩
abbrev S2x1 : Shape := ⟨2, ![2, 1]⟩
abbrev S65536x2x256 : Shape := ⟨3, ![65536, 2, 256]⟩
abbrev S1x1x256 : Shape := ⟨3, ![1, 1, 256]⟩
abbrev S65536x2x64 : Shape := ⟨3, ![65536, 2, 64]⟩
abbrev S1x1x64 : Shape := ⟨3, ![1, 1, 64]⟩
abbrev S65536x64 : Shape := ⟨2, ![65536, 64]⟩
abbrev S64x2 : Shape := ⟨2, ![64, 2]⟩
abbrev S1x2 : Shape := ⟨2, ![1, 2]⟩

abbrev nBuf : Space → Nat
  | .hbm => 83
  | .vmem => 0
  | .smem => 0
  | _ => 0

abbrev bufTy : (tb : Table) → Fin (tcTables nBuf tb) → BufTy
  | .hbm, ⟨0, _⟩ => ⟨S65536x2, .i32⟩
  | .hbm, ⟨1, _⟩ => ⟨S1000000x128, .f32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S64x256, .f32⟩
  | .hbm, ⟨6, _⟩ => ⟨S64, .f32⟩
  | .hbm, ⟨7, _⟩ => ⟨S64x256, .f32⟩
  | .hbm, ⟨8, _⟩ => ⟨S2x64, .f32⟩
  | .hbm, ⟨9, _⟩ => ⟨S2, .f32⟩
  | .hbm, ⟨10, _⟩ => ⟨S2, .i32⟩
  | .hbm, ⟨11, _⟩ => ⟨S2, .i32⟩
  | .hbm, ⟨12, _⟩ => ⟨S_, .i32⟩
  | .hbm, ⟨13, _⟩ => ⟨S65536x2, .i32⟩
  | .hbm, ⟨14, _⟩ => ⟨S65536x2, .i1⟩
  | .hbm, ⟨15, _⟩ => ⟨S_, .i32⟩
  | .hbm, ⟨16, _⟩ => ⟨S65536x2, .i32⟩
  | .hbm, ⟨17, _⟩ => ⟨S65536x2, .i32⟩
  | .hbm, ⟨18, _⟩ => ⟨S65536x2, .i32⟩
  | .hbm, ⟨19, _⟩ => ⟨S65536x2x1, .i32⟩
  | .hbm, ⟨20, _⟩ => ⟨S65536x2x128, .f32⟩
  | .hbm, ⟨21, _⟩ => ⟨S_, .f32⟩
  | .hbm, ⟨22, _⟩ => ⟨S65536x2x128, .f32⟩
  | .hbm, ⟨23, _⟩ => ⟨S_, .i32⟩
  | .hbm, ⟨24, _⟩ => ⟨S2, .i32⟩
  | .hbm, ⟨25, _⟩ => ⟨S2, .i1⟩
  | .hbm, ⟨26, _⟩ => ⟨S_, .i32⟩
  | .hbm, ⟨27, _⟩ => ⟨S2, .i32⟩
  | .hbm, ⟨28, _⟩ => ⟨S2, .i32⟩
  | .hbm, ⟨29, _⟩ => ⟨S2, .i32⟩
  | .hbm, ⟨30, _⟩ => ⟨S2x1, .i32⟩
  | .hbm, ⟨31, _⟩ => ⟨S65536x2x128, .f32⟩
  | .hbm, ⟨32, _⟩ => ⟨S_, .i32⟩
  | .hbm, ⟨33, _⟩ => ⟨S2, .i32⟩
  | .hbm, ⟨34, _⟩ => ⟨S2, .i1⟩
  | .hbm, ⟨35, _⟩ => ⟨S_, .i32⟩
  | .hbm, ⟨36, _⟩ => ⟨S2, .i32⟩
  | .hbm, ⟨37, _⟩ => ⟨S2, .i32⟩
  | .hbm, ⟨38, _⟩ => ⟨S2, .i32⟩
  | .hbm, ⟨39, _⟩ => ⟨S2x1, .i32⟩
  | .hbm, ⟨40, _⟩ => ⟨S65536x2x128, .f32⟩
  | .hbm, ⟨41, _⟩ => ⟨S65536x2x256, .f32⟩
  | .hbm, ⟨42, _⟩ => ⟨S1x1x256, .f32⟩
  | .hbm, ⟨43, _⟩ => ⟨S65536x2x256, .f32⟩
  | .hbm, ⟨44, _⟩ => ⟨S65536x2x256, .f32⟩
  | .hbm, ⟨45, _⟩ => ⟨S65536x2x256, .f32⟩
  | .hbm, ⟨46, _⟩ => ⟨S65536x2x256, .f32⟩
  | .hbm, ⟨47, _⟩ => ⟨S_, .f32⟩
  | .hbm, ⟨48, _⟩ => ⟨S65536x2x256, .f32⟩
  | .hbm, ⟨49, _⟩ => ⟨S_, .i32⟩
  | .hbm, ⟨50, _⟩ => ⟨S2, .i32⟩
  | .hbm, ⟨51, _⟩ => ⟨S2, .i1⟩
  | .hbm, ⟨52, _⟩ => ⟨S_, .i32⟩
  | .hbm, ⟨53, _⟩ => ⟨S2, .i32⟩
  | .hbm, ⟨54, _⟩ => ⟨S2, .i32⟩
  | .hbm, ⟨55, _⟩ => ⟨S2, .i32⟩
  | .hbm, ⟨56, _⟩ => ⟨S2x1, .i32⟩
  | .hbm, ⟨57, _⟩ => ⟨S65536x2x256, .f32⟩
  | .hbm, ⟨58, _⟩ => ⟨S_, .i32⟩
  | .hbm, ⟨59, _⟩ => ⟨S2, .i32⟩
  | .hbm, ⟨60, _⟩ => ⟨S2, .i1⟩
  | .hbm, ⟨61, _⟩ => ⟨S_, .i32⟩
  | .hbm, ⟨62, _⟩ => ⟨S2, .i32⟩
  | .hbm, ⟨63, _⟩ => ⟨S2, .i32⟩
  | .hbm, ⟨64, _⟩ => ⟨S2, .i32⟩
  | .hbm, ⟨65, _⟩ => ⟨S2x1, .i32⟩
  | .hbm, ⟨66, _⟩ => ⟨S65536x2x256, .f32⟩
  | .hbm, ⟨67, _⟩ => ⟨S65536x2x64, .f32⟩
  | .hbm, ⟨68, _⟩ => ⟨S1x1x64, .f32⟩
  | .hbm, ⟨69, _⟩ => ⟨S65536x2x64, .f32⟩
  | .hbm, ⟨70, _⟩ => ⟨S65536x2x64, .f32⟩
  | .hbm, ⟨71, _⟩ => ⟨S65536x2x64, .f32⟩
  | .hbm, ⟨72, _⟩ => ⟨S65536x2x64, .f32⟩
  | .hbm, ⟨73, _⟩ => ⟨S_, .f32⟩
  | .hbm, ⟨74, _⟩ => ⟨S65536x64, .f32⟩
  | .hbm, ⟨75, _⟩ => ⟨S_, .f32⟩
  | .hbm, ⟨76, _⟩ => ⟨S65536x64, .f32⟩
  | .hbm, ⟨77, _⟩ => ⟨S65536x64, .f32⟩
  | .hbm, ⟨78, _⟩ => ⟨S64x2, .f32⟩
  | .hbm, ⟨79, _⟩ => ⟨S65536x2, .f32⟩
  | .hbm, ⟨80, _⟩ => ⟨S1x2, .f32⟩
  | .hbm, ⟨81, _⟩ => ⟨S65536x2, .f32⟩
  | .hbm, ⟨82, _⟩ => ⟨S65536x2, .f32⟩
  | _, _ => ⟨S65536x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_v0 : Ref sig .tc := ⟨.hbm, 13, rfl⟩
abbrev main_v1 : Ref sig .tc := ⟨.hbm, 14, rfl⟩
abbrev main_c_2 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_c_3 : Ref sig .tc := ⟨.hbm, 23, rfl⟩
abbrev main_v8 : Ref sig .tc := ⟨.hbm, 24, rfl⟩
abbrev main_v9 : Ref sig .tc := ⟨.hbm, 25, rfl⟩
abbrev main_c_4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_5 : Ref sig .tc := ⟨.hbm, 32, rfl⟩
abbrev main_v15 : Ref sig .tc := ⟨.hbm, 33, rfl⟩
abbrev main_v16 : Ref sig .tc := ⟨.hbm, 34, rfl⟩
abbrev main_c_6 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_c_8 : Ref sig .tc := ⟨.hbm, 49, rfl⟩
abbrev main_v29 : Ref sig .tc := ⟨.hbm, 50, rfl⟩
abbrev main_v30 : Ref sig .tc := ⟨.hbm, 51, rfl⟩
abbrev main_c_9 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_10 : Ref sig .tc := ⟨.hbm, 58, rfl⟩
abbrev main_v36 : Ref sig .tc := ⟨.hbm, 59, rfl⟩
abbrev main_v37 : Ref sig .tc := ⟨.hbm, 60, rfl⟩
abbrev main_c_11 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_12 : Ref sig .tc := ⟨.hbm, 73, rfl⟩
abbrev main_v49 : Ref sig .tc := ⟨.hbm, 74, rfl⟩
abbrev main_cst_13 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩

abbrev nD : Nat := 1
abbrev τ : Topo := Topo.v7x

variable {F : FTy → Type} [FloatOps F]

class Facts₀ : Prop where
  bcast_S_S65536x2 : S_.BroadcastsInDim S65536x2 (![] : Fin 0 → Fin S65536x2.rank)
  bcast_S65536x2_S65536x2x1_0_1 : S65536x2.BroadcastsInDim S65536x2x1 (![0, 1] : Fin 2 → Fin S65536x2x1.rank)
  bcast_S_S65536x2x128 : S_.BroadcastsInDim S65536x2x128 (![] : Fin 0 → Fin S65536x2x128.rank)
  bcast_S_S2 : S_.BroadcastsInDim S2 (![] : Fin 0 → Fin S2.rank)
  bcast_S2_S2x1_0 : S2.BroadcastsInDim S2x1 (![0] : Fin 1 → Fin S2x1.rank)
  bcast_S256_S1x1x256_2 : S256.BroadcastsInDim S1x1x256 (![2] : Fin 1 → Fin S1x1x256.rank)
  bcast_S1x1x256_S65536x2x256_0_1_2 : S1x1x256.BroadcastsInDim S65536x2x256 (![0, 1, 2] : Fin 3 → Fin S65536x2x256.rank)
  bcast_S_S65536x2x256 : S_.BroadcastsInDim S65536x2x256 (![] : Fin 0 → Fin S65536x2x256.rank)
  bcast_S64_S1x1x64_2 : S64.BroadcastsInDim S1x1x64 (![2] : Fin 1 → Fin S1x1x64.rank)
  bcast_S1x1x64_S65536x2x64_0_1_2 : S1x1x64.BroadcastsInDim S65536x2x64 (![0, 1, 2] : Fin 3 → Fin S65536x2x64.rank)
  reducesTo_S65536x2x64_S65536x64_d1 : S65536x2x64.ReducesTo [1] S65536x64
  h_S_ : 0 < S_.numel
  bcast_S_S65536x64 : S_.BroadcastsInDim S65536x64 (![] : Fin 0 → Fin S65536x64.rank)
  transposes_S2x64_S64x2_1_0 : S2x64.Transposes [1, 0] S64x2
  bcast_S2_S1x2_1 : S2.BroadcastsInDim S1x2 (![1] : Fin 1 → Fin S1x2.rank)
  bcast_S1x2_S65536x2_0_1 : S1x2.BroadcastsInDim S65536x2 (![0, 1] : Fin 2 → Fin S65536x2.rank)
  gather_S1000000x128_S65536x2x1_S65536x2x128_2_0_n_n_0_2_1128_wf : GatherDims.WF S1000000x128 S65536x2x1 S65536x2x128 [2] [0] [] [0] [] 2 ![1, 128]
  gather_S65536x2x128_S2x1_S65536x2x128_02_1_n_n_1_1_655361128_wf : GatherDims.WF S65536x2x128 S2x1 S65536x2x128 [0, 2] [1] [] [1] [] 1 ![65536, 1, 128]
  scatter_S65536x2x128_S2x1_S65536x2x128_02_1_1_1_wf : ScatterDims.WF S65536x2x128 S2x1 S65536x2x128 [0, 2] [1] [1] 1
  dot_S65536x2x128_S256x128_S65536x2x256_2_1_01_0_n_n_wf : DotDims.WF S65536x2x128 S256x128 S65536x2x256 [2] [1] [0, 1] [0] [] []
  gather_S65536x2x256_S2x1_S65536x2x256_02_1_n_n_1_1_655361256_wf : GatherDims.WF S65536x2x256 S2x1 S65536x2x256 [0, 2] [1] [] [1] [] 1 ![65536, 1, 256]
  scatter_S65536x2x256_S2x1_S65536x2x256_02_1_1_1_wf : ScatterDims.WF S65536x2x256 S2x1 S65536x2x256 [0, 2] [1] [1] 1
  dot_S65536x2x256_S64x256_S65536x2x64_2_1_01_0_n_n_wf : DotDims.WF S65536x2x256 S64x256 S65536x2x64 [2] [1] [0, 1] [0] [] []
  dot_S65536x64_S64x2_S65536x2_1_0_0_1_n_n_wf : DotDims.WF S65536x64 S64x2 S65536x2 [1] [0] [0] [1] [] []

variable [Facts₀]

def gather_S1000000x128_S65536x2x1_S65536x2x128_2_0_n_n_0_2_1128 : GatherDims S1000000x128 S65536x2x1 S65536x2x128 where
  offsetDims := [2]
  collapsedSliceDims := [0]
  operandBatchingDims := []
  startIndicesBatchingDims := []
  startIndexMap := [0]
  indexVectorDim := 2
  sliceSizes := ![1, 128]
  wf := gather_S1000000x128_S65536x2x1_S65536x2x128_2_0_n_n_0_2_1128_wf
def gather_S65536x2x128_S2x1_S65536x2x128_02_1_n_n_1_1_655361128 : GatherDims S65536x2x128 S2x1 S65536x2x128 where
  offsetDims := [0, 2]
  collapsedSliceDims := [1]
  operandBatchingDims := []
  startIndicesBatchingDims := []
  startIndexMap := [1]
  indexVectorDim := 1
  sliceSizes := ![65536, 1, 128]
  wf := gather_S65536x2x128_S2x1_S65536x2x128_02_1_n_n_1_1_655361128_wf
def scatter_S65536x2x128_S2x1_S65536x2x128_02_1_1_1 : ScatterDims S65536x2x128 S2x1 S65536x2x128 where
  updateWindowDims := [0, 2]
  insertedWindowDims := [1]
  scatterDimsToOperandDims := [1]
  indexVectorDim := 1
  wf := scatter_S65536x2x128_S2x1_S65536x2x128_02_1_1_1_wf
def dot_S65536x2x128_S256x128_S65536x2x256_2_1_01_0_n_n : DotDims S65536x2x128 S256x128 S65536x2x256 where
  lhsContracting := [2]
  rhsContracting := [1]
  lhsNonContracting := [0, 1]
  rhsNonContracting := [0]
  lhsBatch := []
  rhsBatch := []
  wf := dot_S65536x2x128_S256x128_S65536x2x256_2_1_01_0_n_n_wf
def gather_S65536x2x256_S2x1_S65536x2x256_02_1_n_n_1_1_655361256 : GatherDims S65536x2x256 S2x1 S65536x2x256 where
  offsetDims := [0, 2]
  collapsedSliceDims := [1]
  operandBatchingDims := []
  startIndicesBatchingDims := []
  startIndexMap := [1]
  indexVectorDim := 1
  sliceSizes := ![65536, 1, 256]
  wf := gather_S65536x2x256_S2x1_S65536x2x256_02_1_n_n_1_1_655361256_wf
def scatter_S65536x2x256_S2x1_S65536x2x256_02_1_1_1 : ScatterDims S65536x2x256 S2x1 S65536x2x256 where
  updateWindowDims := [0, 2]
  insertedWindowDims := [1]
  scatterDimsToOperandDims := [1]
  indexVectorDim := 1
  wf := scatter_S65536x2x256_S2x1_S65536x2x256_02_1_1_1_wf
def dot_S65536x2x256_S64x256_S65536x2x64_2_1_01_0_n_n : DotDims S65536x2x256 S64x256 S65536x2x64 where
  lhsContracting := [2]
  rhsContracting := [1]
  lhsNonContracting := [0, 1]
  rhsNonContracting := [0]
  lhsBatch := []
  rhsBatch := []
  wf := dot_S65536x2x256_S64x256_S65536x2x64_2_1_01_0_n_n_wf
def dot_S65536x64_S64x2_S65536x2_1_0_0_1_n_n : DotDims S65536x64 S64x2 S65536x2 where
  lhsContracting := [1]
  rhsContracting := [0]
  lhsNonContracting := [0]
  rhsNonContracting := [1]
  lhsBatch := []
  rhsBatch := []
  wf := dot_S65536x64_S64x2_S65536x2_1_0_0_1_n_n_wf

class Facts : Prop extends Facts₀ where

variable [Facts]
-- ==== Proof.LibRowTake.lean ====
/-
  Taking rows of a table by a column of integer positions.

  `table[idx]` over a table of `N` rows and `C` columns, with `E` positions kept as an `E × 1` column:
  entry `(e, q)` of the result is entry `(row e, q)` of the table, where `row e` is position `e` read as a
  signed integer and clamped into `[0, N - 1]`: a negative position reads row 0, one past the end the last
  row. And the position arithmetic in front of such a take that maps a negative position `i` to `i + N`
  leaves a position that is not negative as it is.
-/
import Idealize.ShloMosaic.PureOps
import Idealize.ShloMosaic.Lib.ValueIdx
import Idealize.ShloMosaic.Lib.DynamicIndex

noncomputable section

open Idealize.ShloMosaic Idealize.ShloMosaic.ValueIdx

namespace Cert.RowTake

/-- The dimension numbers of a take of whole rows: the table's row axis is indexed and dropped, its column
    axis is carried over; the positions are an `E × 1` column. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a position selects: read signed, clamped into the table. -/
def rowOf {w : Nat} (N : Nat) (hN : 0 < N) (p : BitVec w) : Fin N := ⟨min p.toInt.toNat (N - 1), by omega⟩

/-- THE TAKE AT `(e, q)`: the table at `(rowOf (position e), q)`. -/
theorem gather_rows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowDims N C E wf) x idx (ix2 e q) = x (ix2 (rowOf N hN (idx (ix2 e (0 : Fin 1)))) q) := by
  unfold Host.gather
  refine congrArg x ?_
  funext a
  refine Fin.ext ?_
  match a with
  | ⟨0, _⟩ =>
    show (rowDims N C E wf).start (ix2 e q) idx 0 + (rowDims N C E wf).batchCoord (ix2 e q) 0
      + (rowDims N C E wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e q) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C E wf).start (ix2 e q) idx 1 + (rowDims N C E wf).batchCoord (ix2 e q) 1
      + (rowDims N C E wf).offCoord (ix2 e q) 1 = q.val
    rw [GatherDims.batchCoord_eq_zero _ _ _ List.not_mem_nil]
    unfold GatherDims.start GatherDims.offCoord
    rw [dif_neg (show (1 : Fin 2) ∉ ([0] : List (Fin 2)) by decide),
      dif_pos ((GatherDims.mem_sKept _ _).mpr ⟨show (1 : Fin 2) ∉ ([0] : List (Fin 2)) by decide, List.not_mem_nil⟩),
      Nat.zero_add]
    rfl

/-- A position that is not negative passes the wrap-around `i < 0 ? i + n : i` unchanged. -/
theorem wrap_of_nonneg {s : Shape} (i n z : IVec s 32) (hz : ∀ j, z j = 0#32) (j : s.Idx)
    (h : 0 ≤ (i j).toInt) : select (cmpi .slt i z) (addi i n) i j = i j := by
  obtain rfl : z = constantI s 32 0#32 := funext hz
  exact select_slt_zero_of_nonneg i (addi i n) i j h

end Cert.RowTake

end
-- ==== Proof.Spec.lean ====
/-
  Two graph-convolution layers on a graph of two nodes whose two edges swap the nodes, a mean over the two
  nodes, and a last linear layer, written entry by entry over the extended reals, in two arrangements.

  Sample `b` reads two rows of the table, one per node: `feat b n`. A layer sends the pair of node
  vectors `(u 0, u 1)` to `n ↦ Wr · u (other n) + bias + Wo · u n`: node `n` receives the OTHER node's
  vector through `Wr` (the edge swap) and its own through `Wo`. The first arrangement (`outRef`) applies
  two such layers node by node, averages the two nodes and applies the last layer. The second (`outKer`)
  averages the two node vectors FIRST and applies to that one vector the layers with the summed weights
  `Wr + Wo`. Because every layer is affine and the swap only exchanges the two summands of the mean,
  the mean over the nodes commutes with each layer: on finite data the two arrangements agree
  (`kerArr_eq_refArr`). Finiteness is needed: the law moves a factor across a sum.
-/
import Idealize.ShloMosaic.PureOps.Ideal
import Idealize.ShloMosaic.Lib.ValueIdx
import proofs.«407204_j1589137899613_3_alg».proof.Proof.LibRowTake

noncomputable section

open Idealize.ShloMosaic Idealize.ShloMosaic.ValueIdx

namespace Cert.Gnn

abbrev SX : Shape := ⟨2, ![65536, 2]⟩
abbrev SEmb : Shape := ⟨2, ![1000000, 128]⟩
abbrev SW1 : Shape := ⟨2, ![256, 128]⟩
abbrev SB1 : Shape := ⟨1, ![256]⟩
abbrev SW2 : Shape := ⟨2, ![64, 256]⟩
abbrev SB2 : Shape := ⟨1, ![64]⟩
abbrev SFc : Shape := ⟨2, ![2, 64]⟩
abbrev SFb : Shape := ⟨1, ![2]⟩

/-- The nine float arrays: the table, the two layers' weights and biases, the last layer. -/
structure Params where
  emb : SEmb.Idx → EReal
  W1r : SW1.Idx → EReal
  b1 : SB1.Idx → EReal
  W1o : SW1.Idx → EReal
  W2r : SW2.Idx → EReal
  b2 : SB2.Idx → EReal
  W2o : SW2.Idx → EReal
  fcW : SFc.Idx → EReal
  fcb : SFb.Idx → EReal

/-- Every entry of every array is a real number. -/
structure Params.Finite (P : Params) : Prop where
  emb : ∀ i, ∃ r : ℝ, P.emb i = (r : EReal)
  W1r : ∀ i, ∃ r : ℝ, P.W1r i = (r : EReal)
  b1 : ∀ i, ∃ r : ℝ, P.b1 i = (r : EReal)
  W1o : ∀ i, ∃ r : ℝ, P.W1o i = (r : EReal)
  W2r : ∀ i, ∃ r : ℝ, P.W2r i = (r : EReal)
  b2 : ∀ i, ∃ r : ℝ, P.b2 i = (r : EReal)
  W2o : ∀ i, ∃ r : ℝ, P.W2o i = (r : EReal)
  fcW : ∀ i, ∃ r : ℝ, P.fcW i = (r : EReal)
  fcb : ∀ i, ∃ r : ℝ, P.fcb i = (r : EReal)

/-- The factor one half, as the averaged arrangement spells it. -/
def half : EReal := Ideal.ofBits .f32 0x3F000000#32
/-- The divisor two, as the node-by-node arrangement spells it. -/
def two : EReal := Ideal.ofBits .f32 0x40000000#32

/-- The table row that node `n` of sample `b` reads: the position read signed and clamped into the table. -/
def row (x : IVec SX 32) (b : Fin 65536) (n : Fin 2) : Fin 1000000 :=
  Cert.RowTake.rowOf 1000000 (by decide) (x (ix2 b n))

section
variable (P : Params) (x : IVec SX 32)

/-- Node `n` of sample `b`: its table row. -/
def feat (b : Fin 65536) (n : Fin 2) (i : Fin 128) : EReal := P.emb (ix2 (row x b n) i)

/-! ### Node by node -/

/-- First layer at node `n`: the other node through `W1r`, the bias, the node itself through `W1o`. -/
def conv1 (b : Fin 65536) (n : Fin 2) (j : Fin 256) : EReal :=
  ((∑ i : Fin 128, feat P x b n.rev i * P.W1r (ix2 j i)) + P.b1 (ix1 j))
    + ∑ i : Fin 128, feat P x b n i * P.W1o (ix2 j i)

/-- Second layer at node `n`, over the first layer's two node vectors. -/
def conv2 (b : Fin 65536) (n : Fin 2) (k : Fin 64) : EReal :=
  ((∑ j : Fin 256, conv1 P x b n.rev j * P.W2r (ix2 k j)) + P.b2 (ix1 k))
    + ∑ j : Fin 256, conv1 P x b n j * P.W2o (ix2 k j)

/-- The mean of the second layer over the two nodes: their sum divided by two. -/
def pooledRef (b : Fin 65536) (k : Fin 64) : EReal := Ideal.div (∑ n : Fin 2, conv2 P x b n k) two

/-- The last layer over the pooled vector. -/
def outRef (b : Fin 65536) (o : Fin 2) : EReal :=
  (∑ k : Fin 64, pooledRef P x b k * P.fcW (ix2 o k)) + P.fcb (ix1 o)

/-! ### Averaged first -/

/-- The mean of the two node vectors: their sum times one half. -/
def mid (b : Fin 65536) (i : Fin 128) : EReal := (feat P x b 0 i + feat P x b 1 i) * half

/-- First layer with the summed weights, over the mean vector. -/
def hid (b : Fin 65536) (j : Fin 256) : EReal :=
  (∑ i : Fin 128, mid P x b i * (P.W1r (ix2 j i) + P.W1o (ix2 j i))) + P.b1 (ix1 j)

/-- Second layer with the summed weights. -/
def pooledKer (b : Fin 65536) (k : Fin 64) : EReal :=
  (∑ j : Fin 256, hid P x b j * (P.W2r (ix2 k j) + P.W2o (ix2 k j))) + P.b2 (ix1 k)

/-- The last layer over it. -/
def outKer (b : Fin 65536) (o : Fin 2) : EReal :=
  (∑ k : Fin 64, pooledKer P x b k * P.fcW (ix2 o k)) + P.fcb (ix1 o)

/-! ### As arrays of shape 65536 × 2 -/

def kerArr : SX.Idx → EReal := fun idx => outKer P x (idx 0) (idx 1)
def refArr : SX.Idx → EReal := fun idx => outRef P x (idx 0) (idx 1)

end

end Cert.Gnn

end
-- ==== Proof.KerPayload.lean ====
/-
  The kernel body's one stored value at an entry `(p, q)` of its 4096 × 2 block: three contractions one over
  the other, each a plain sum over its contracted axis (the accumulator is zero), each followed by its bias
  read along the row; the first contraction's left factor is the sum of the two loaded row blocks times one
  half. Changes of float format are the identity on the extended reals.
-/
import proofs.«407204_j1589137899613_3_alg».proof.Proof.Gen.KernelIdeal.Skeleton
import proofs.«407204_j1589137899613_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.GnnValue

open Cert.KernelIdeal Cert.KernelIdeal.Gen Idealize.ShloMosaic Idealize.ShloMosaic.ValueIdx

/-! ### The first contraction: 4096 × 128 by 128 × 256 -/

/-- The left factor's row is the output's row. -/
theorem lhs_dot1_0 (i : S4096x256.Idx) (q : dot_S4096x128_S128x256_S4096x256_1_0_0_1_n_n.contr.Idx) :
    (dot_S4096x128_S128x256_S4096x256_1_0_0_1_n_n.lhsIdx i q 0).val = (i 0).val := by
  unfold DotDims.lhsIdx
  rw [dif_neg (show ¬(0 : Fin S4096x128.rank) ∈ dot_S4096x128_S128x256_S4096x256_1_0_0_1_n_n.lhsBatch by decide),
    dif_pos (show (0 : Fin S4096x128.rank) ∈ dot_S4096x128_S128x256_S4096x256_1_0_0_1_n_n.lhsNonContracting by decide)]
  rfl

/-- The left factor's column is the contracted position. -/
theorem lhs_dot1_1 (i : S4096x256.Idx) (q : dot_S4096x128_S128x256_S4096x256_1_0_0_1_n_n.contr.Idx) :
    (dot_S4096x128_S128x256_S4096x256_1_0_0_1_n_n.lhsIdx i q 1).val = (q ⟨0, by decide⟩).val :=
  dot_S4096x128_S128x256_S4096x256_1_0_0_1_n_n.lhsIdx_val_of_single rfl i q

/-- The right factor's row is the contracted position. -/
theorem rhs_dot1_0 (i : S4096x256.Idx) (q : dot_S4096x128_S128x256_S4096x256_1_0_0_1_n_n.contr.Idx) :
    (dot_S4096x128_S128x256_S4096x256_1_0_0_1_n_n.rhsIdx i q 0).val = (q ⟨0, by decide⟩).val :=
  dot_S4096x128_S128x256_S4096x256_1_0_0_1_n_n.rhsIdx_val_of_single rfl i q

/-- The right factor's column is the output's column. -/
theorem rhs_dot1_1 (i : S4096x256.Idx) (q : dot_S4096x128_S128x256_S4096x256_1_0_0_1_n_n.contr.Idx) :
    (dot_S4096x128_S128x256_S4096x256_1_0_0_1_n_n.rhsIdx i q 1).val = (i 1).val := by
  unfold DotDims.rhsIdx
  rw [dif_neg (show ¬(1 : Fin S128x256.rank) ∈ dot_S4096x128_S128x256_S4096x256_1_0_0_1_n_n.rhsBatch by decide),
    dif_pos (show (1 : Fin S128x256.rank) ∈ dot_S4096x128_S128x256_S4096x256_1_0_0_1_n_n.rhsNonContracting by decide)]
  rfl

/-- Into the zero accumulator the contraction at `(p, c)` is the sum over the contracted axis of the products. -/
theorem matmul1_apply (l : FVec Ideal S4096x128 .bf16) (r : FVec Ideal S128x256 .bf16) (p : Fin 4096) (c : Fin 256) :
    matmul dot_S4096x128_S128x256_S4096x256_1_0_0_1_n_n none l r (constant (F := Ideal) S4096x256 .f32 0x00000000#32) (ix2 p c)
      = ∑ k : Fin 128, l (ix2 p k) * r (ix2 k c) := by
  simp only [matmul]
  rw [Ideal.matmul_constant_zero_apply,
    ← Equiv.sum_comp (contrEquiv1 dot_S4096x128_S128x256_S4096x256_1_0_0_1_n_n 128 rfl rfl).symm]
  refine Finset.sum_congr rfl fun k _ => ?_
  have hk := contrEquiv1_symm_val dot_S4096x128_S128x256_S4096x256_1_0_0_1_n_n 128 rfl rfl k
  have el : dot_S4096x128_S128x256_S4096x256_1_0_0_1_n_n.lhsIdx (ix2 p c) ((contrEquiv1 dot_S4096x128_S128x256_S4096x256_1_0_0_1_n_n 128 rfl rfl).symm k)
      = ix2 p k := funext fun a => Fin.ext (by
    match a with
    | ⟨0, _⟩ => exact lhs_dot1_0 _ _
    | ⟨1, _⟩ => exact (lhs_dot1_1 _ _).trans hk)
  have er : dot_S4096x128_S128x256_S4096x256_1_0_0_1_n_n.rhsIdx (ix2 p c) ((contrEquiv1 dot_S4096x128_S128x256_S4096x256_1_0_0_1_n_n 128 rfl rfl).symm k)
      = ix2 k c := funext fun a => Fin.ext (by
    match a with
    | ⟨0, _⟩ => exact (rhs_dot1_0 _ _).trans hk
    | ⟨1, _⟩ => exact rhs_dot1_1 _ _)
  rw [el, er]

/-! ### The second contraction: 4096 × 256 by 256 × 64 -/

/-- The left factor's row is the output's row. -/
theorem lhs_dot2_0 (i : S4096x64.Idx) (q : dot_S4096x256_S256x64_S4096x64_1_0_0_1_n_n.contr.Idx) :
    (dot_S4096x256_S256x64_S4096x64_1_0_0_1_n_n.lhsIdx i q 0).val = (i 0).val := by
  unfold DotDims.lhsIdx
  rw [dif_neg (show ¬(0 : Fin S4096x256.rank) ∈ dot_S4096x256_S256x64_S4096x64_1_0_0_1_n_n.lhsBatch by decide),
    dif_pos (show (0 : Fin S4096x256.rank) ∈ dot_S4096x256_S256x64_S4096x64_1_0_0_1_n_n.lhsNonContracting by decide)]
  rfl

/-- The left factor's column is the contracted position. -/
theorem lhs_dot2_1 (i : S4096x64.Idx) (q : dot_S4096x256_S256x64_S4096x64_1_0_0_1_n_n.contr.Idx) :
    (dot_S4096x256_S256x64_S4096x64_1_0_0_1_n_n.lhsIdx i q 1).val = (q ⟨0, by decide⟩).val :=
  dot_S4096x256_S256x64_S4096x64_1_0_0_1_n_n.lhsIdx_val_of_single rfl i q

/-- The right factor's row is the contracted position. -/
theorem rhs_dot2_0 (i : S4096x64.Idx) (q : dot_S4096x256_S256x64_S4096x64_1_0_0_1_n_n.contr.Idx) :
    (dot_S4096x256_S256x64_S4096x64_1_0_0_1_n_n.rhsIdx i q 0).val = (q ⟨0, by decide⟩).val :=
  dot_S4096x256_S256x64_S4096x64_1_0_0_1_n_n.rhsIdx_val_of_single rfl i q

/-- The right factor's column is the output's column. -/
theorem rhs_dot2_1 (i : S4096x64.Idx) (q : dot_S4096x256_S256x64_S4096x64_1_0_0_1_n_n.contr.Idx) :
    (dot_S4096x256_S256x64_S4096x64_1_0_0_1_n_n.rhsIdx i q 1).val = (i 1).val := by
  unfold DotDims.rhsIdx
  rw [dif_neg (show ¬(1 : Fin S256x64.rank) ∈ dot_S4096x256_S256x64_S4096x64_1_0_0_1_n_n.rhsBatch by decide),
    dif_pos (show (1 : Fin S256x64.rank) ∈ dot_S4096x256_S256x64_S4096x64_1_0_0_1_n_n.rhsNonContracting by decide)]
  rfl

/-- Into the zero accumulator the contraction at `(p, c)` is the sum over the contracted axis of the products. -/
theorem matmul2_apply (l : FVec Ideal S4096x256 .bf16) (r : FVec Ideal S256x64 .bf16) (p : Fin 4096) (c : Fin 64) :
    matmul dot_S4096x256_S256x64_S4096x64_1_0_0_1_n_n none l r (constant (F := Ideal) S4096x64 .f32 0x00000000#32) (ix2 p c)
      = ∑ k : Fin 256, l (ix2 p k) * r (ix2 k c) := by
  simp only [matmul]
  rw [Ideal.matmul_constant_zero_apply,
    ← Equiv.sum_comp (contrEquiv1 dot_S4096x256_S256x64_S4096x64_1_0_0_1_n_n 256 rfl rfl).symm]
  refine Finset.sum_congr rfl fun k _ => ?_
  have hk := contrEquiv1_symm_val dot_S4096x256_S256x64_S4096x64_1_0_0_1_n_n 256 rfl rfl k
  have el : dot_S4096x256_S256x64_S4096x64_1_0_0_1_n_n.lhsIdx (ix2 p c) ((contrEquiv1 dot_S4096x256_S256x64_S4096x64_1_0_0_1_n_n 256 rfl rfl).symm k)
      = ix2 p k := funext fun a => Fin.ext (by
    match a with
    | ⟨0, _⟩ => exact lhs_dot2_0 _ _
    | ⟨1, _⟩ => exact (lhs_dot2_1 _ _).trans hk)
  have er : dot_S4096x256_S256x64_S4096x64_1_0_0_1_n_n.rhsIdx (ix2 p c) ((contrEquiv1 dot_S4096x256_S256x64_S4096x64_1_0_0_1_n_n 256 rfl rfl).symm k)
      = ix2 k c := funext fun a => Fin.ext (by
    match a with
    | ⟨0, _⟩ => exact (rhs_dot2_0 _ _).trans hk
    | ⟨1, _⟩ => exact rhs_dot2_1 _ _)
  rw [el, er]

/-! ### The third contraction: 4096 × 64 by 64 × 2 -/

/-- The left factor's row is the output's row. -/
theorem lhs_dot3_0 (i : S4096x2.Idx) (q : dot_S4096x64_S64x2_S4096x2_1_0_0_1_n_n.contr.Idx) :
    (dot_S4096x64_S64x2_S4096x2_1_0_0_1_n_n.lhsIdx i q 0).val = (i 0).val := by
  unfold DotDims.lhsIdx
  rw [dif_neg (show ¬(0 : Fin S4096x64.rank) ∈ dot_S4096x64_S64x2_S4096x2_1_0_0_1_n_n.lhsBatch by decide),
    dif_pos (show (0 : Fin S4096x64.rank) ∈ dot_S4096x64_S64x2_S4096x2_1_0_0_1_n_n.lhsNonContracting by decide)]
  rfl

/-- The left factor's column is the contracted position. -/
theorem lhs_dot3_1 (i : S4096x2.Idx) (q : dot_S4096x64_S64x2_S4096x2_1_0_0_1_n_n.contr.Idx) :
    (dot_S4096x64_S64x2_S4096x2_1_0_0_1_n_n.lhsIdx i q 1).val = (q ⟨0, by decide⟩).val :=
  dot_S4096x64_S64x2_S4096x2_1_0_0_1_n_n.lhsIdx_val_of_single rfl i q

/-- The right factor's row is the contracted position. -/
theorem rhs_dot3_0 (i : S4096x2.Idx) (q : dot_S4096x64_S64x2_S4096x2_1_0_0_1_n_n.contr.Idx) :
    (dot_S4096x64_S64x2_S4096x2_1_0_0_1_n_n.rhsIdx i q 0).val = (q ⟨0, by decide⟩).val :=
  dot_S4096x64_S64x2_S4096x2_1_0_0_1_n_n.rhsIdx_val_of_single rfl i q

/-- The right factor's column is the output's column. -/
theorem rhs_dot3_1 (i : S4096x2.Idx) (q : dot_S4096x64_S64x2_S4096x2_1_0_0_1_n_n.contr.Idx) :
    (dot_S4096x64_S64x2_S4096x2_1_0_0_1_n_n.rhsIdx i q 1).val = (i 1).val := by
  unfold DotDims.rhsIdx
  rw [dif_neg (show ¬(1 : Fin S64x2.rank) ∈ dot_S4096x64_S64x2_S4096x2_1_0_0_1_n_n.rhsBatch by decide),
    dif_pos (show (1 : Fin S64x2.rank) ∈ dot_S4096x64_S64x2_S4096x2_1_0_0_1_n_n.rhsNonContracting by decide)]
  rfl

/-- Into the zero accumulator the contraction at `(p, c)` is the sum over the contracted axis of the products. -/
theorem matmul3_apply (l : FVec Ideal S4096x64 .bf16) (r : FVec Ideal S64x2 .bf16) (p : Fin 4096) (c : Fin 2) :
    matmul dot_S4096x64_S64x2_S4096x2_1_0_0_1_n_n none l r (constant (F := Ideal) S4096x2 .f32 0x00000000#32) (ix2 p c)
      = ∑ k : Fin 64, l (ix2 p k) * r (ix2 k c) := by
  simp only [matmul]
  rw [Ideal.matmul_constant_zero_apply,
    ← Equiv.sum_comp (contrEquiv1 dot_S4096x64_S64x2_S4096x2_1_0_0_1_n_n 64 rfl rfl).symm]
  refine Finset.sum_congr rfl fun k _ => ?_
  have hk := contrEquiv1_symm_val dot_S4096x64_S64x2_S4096x2_1_0_0_1_n_n 64 rfl rfl k
  have el : dot_S4096x64_S64x2_S4096x2_1_0_0_1_n_n.lhsIdx (ix2 p c) ((contrEquiv1 dot_S4096x64_S64x2_S4096x2_1_0_0_1_n_n 64 rfl rfl).symm k)
      = ix2 p k := funext fun a => Fin.ext (by
    match a with
    | ⟨0, _⟩ => exact lhs_dot3_0 _ _
    | ⟨1, _⟩ => exact (lhs_dot3_1 _ _).trans hk)
  have er : dot_S4096x64_S64x2_S4096x2_1_0_0_1_n_n.rhsIdx (ix2 p c) ((contrEquiv1 dot_S4096x64_S64x2_S4096x2_1_0_0_1_n_n 64 rfl rfl).symm k)
      = ix2 k c := funext fun a => Fin.ext (by
    match a with
    | ⟨0, _⟩ => exact (rhs_dot3_0 _ _).trans hk
    | ⟨1, _⟩ => exact rhs_dot3_1 _ _)
  rw [el, er]

/-! ### A bias read along the row -/

/-- A vector of length `n` given a leading unit axis and repeated over 4096 rows reads, at `(p, c)`, its entry `c`. -/
theorem rowBias_apply {n : ℕ} (b : (⟨1, ![n]⟩ : Shape).Idx → EReal)
    (hc : (⟨1, ![n]⟩ : Shape).ShapeCasts ⟨2, ![1, n]⟩) (hb : (⟨2, ![1, n]⟩ : Shape).Broadcasts ⟨2, ![4096, n]⟩)
    (p : Fin 4096) (c : Fin n) :
    broadcastTo ⟨2, ![4096, n]⟩ (shapeCast ⟨2, ![1, n]⟩ b hc) hb (ix2 p c) = b (ix1 c) :=
  (broadcastTo_1b_ab_apply _ hb p c).trans (shapeCast_a_1a_apply b hc 0 c)

/-! ### The stored value -/

theorem pay_apply (v0 v2 : Vec Ideal S4096x128 .f32) (v8 : Vec Ideal S128x256 .bf16) (v10 : Vec Ideal S256 .f32)
    (v16 : Vec Ideal S256x64 .bf16) (v18 : Vec Ideal S64 .f32) (v24 : Vec Ideal S64x2 .bf16) (v26 : Vec Ideal S2 .f32)
    (p : Fin 4096) (q : Fin 2) :
    k0_pay1 (F := Ideal) v0 v2 v8 v10 v16 v18 v24 v26 (ix2 p q)
      = (∑ k : Fin 64,
          ((∑ j : Fin 256,
              ((∑ i : Fin 128, ((v0 (ix2 p i) + v2 (ix2 p i)) * Cert.Gnn.half) * v8 (ix2 i j)) + v10 (ix1 j))
                * v16 (ix2 j k)) + v18 (ix1 k)) * v24 (ix2 k q)) + v26 (ix1 q) := by
  unfold k0_pay1
  simp only [shapeCast_self]
  -- the third contraction and its bias
  refine (addf_apply _ _ _).trans ?_
  refine congrArg₂ (· + ·) ?_ (rowBias_apply v26 _ _ p q)
  refine (matmul3_apply _ _ p q).trans ?_
  refine Finset.sum_congr rfl fun k _ => ?_
  refine congrArg (· * v24 (ix2 k q)) ?_
  -- the second contraction and its bias
  refine (truncf_apply (ψ := .bf16) _ bitsLt_bf16_f32 _).trans ?_
  refine (addf_apply _ _ _).trans ?_
  refine congrArg₂ (· + ·) ?_ (rowBias_apply v18 _ _ p k)
  refine (matmul2_apply _ _ p k).trans ?_
  refine Finset.sum_congr rfl fun j _ => ?_
  refine congrArg (· * v16 (ix2 j k)) ?_
  -- the first contraction and its bias
  refine (truncf_apply (ψ := .bf16) _ bitsLt_bf16_f32 _).trans ?_
  refine (addf_apply _ _ _).trans ?_
  refine congrArg₂ (· + ·) ?_ (rowBias_apply v10 _ _ p j)
  refine (matmul1_apply _ _ p j).trans ?_
  refine Finset.sum_congr rfl fun i _ => ?_
  refine congrArg (· * v8 (ix2 i j)) ?_
  -- its left factor: the two row blocks added, times one half
  rfl

end Cert.KernelIdeal.GnnValue

end
-- ==== Proof.KerHost.lean ====
/-
  The arrays the kernel's one region finds, as the host operations in front of it leave them, at an index.
  The two row arrays are the table read at the clipped positions: a position that is not negative is clipped
  to `min (N - 1)` of itself, passes the wrap rule unchanged, and the take's own clamp to `N - 1` then changes
  nothing, so the row read is the position's row (signed, clamped into the table). The three weight arrays
  are the summed (or the single) weight, transposed; the change of float format is the identity.
-/
import proofs.«407204_j1589137899613_3_alg».proof.Proof.Gen.KernelIdeal.Frame
import proofs.«407204_j1589137899613_3_alg».proof.Proof.Spec
import Idealize.ShloMosaic.Lib.ValueIdx
import Idealize.ShloMosaic.Lib.Pipeline.Value
import Idealize.ShloMosaic.Lib.StableHlo.Run
import Idealize.ShloMosaic.Lib.ValueLayout
import proofs.«407204_j1589137899613_3_alg».proof.Proof.LibRowTake

noncomputable section

namespace Cert.KernelIdeal.GnnValue

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The nine float argument arrays as launched on core `c`. -/
def paramsOf (c : Dev nD) : Cert.Gnn.Params :=
  ⟨m ((c : Thread nD τ).loc main_arg1), m ((c : Thread nD τ).loc main_arg2), m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8), m ((c : Thread nD τ).loc main_arg9)⟩

namespace KerHost

/-! ### The clip, read at one position -/

/-- A position that is not negative, clipped into the table's rows, selects the row the position itself selects. -/
theorem rowOf_clip (p : BitVec 32) (h : 0 ≤ p.toInt) :
    Cert.RowTake.rowOf 1000000 (by decide) (IntOp.minsi 999999#32 (IntOp.maxsi 0#32 p))
      = Cert.RowTake.rowOf 1000000 (by decide) p := by
  have h1 : IntOp.maxsi 0#32 p = p := by
    unfold IntOp.maxsi
    have hs : ¬ (p.slt 0#32 = true) := by
      rw [BitVec.slt_iff_toInt_lt, BitVec.toInt_zero]; omega
    rw [if_neg hs]
  rw [h1]
  unfold IntOp.minsi
  have h9 : (999999#32 : BitVec 32).toInt = 999999 := by decide
  by_cases hs : (999999#32 : BitVec 32).slt p = true
  · rw [if_pos hs]
    have hlt := BitVec.slt_iff_toInt_lt.mp hs
    rw [h9] at hlt
    unfold Cert.RowTake.rowOf
    refine Fin.ext ?_
    show min (999999#32 : BitVec 32).toInt.toNat (1000000 - 1) = min p.toInt.toNat (1000000 - 1)
    rw [h9]
    omega
  · rw [if_neg hs]

/-- A position that is not negative stays so when clipped. -/
theorem clip_nonneg (p : BitVec 32) (h : 0 ≤ p.toInt) :
    0 ≤ (IntOp.minsi 999999#32 (IntOp.maxsi 0#32 p)).toInt := by
  have h1 : IntOp.maxsi 0#32 p = p := by
    unfold IntOp.maxsi
    have hs : ¬ (p.slt 0#32 = true) := by
      rw [BitVec.slt_iff_toInt_lt, BitVec.toInt_zero]; omega
    rw [if_neg hs]
  rw [h1]
  unfold IntOp.minsi
  by_cases hs : (999999#32 : BitVec 32).slt p = true
  · rw [if_pos hs]; decide
  · rw [if_neg hs]; exact h

/-! ### One column of the positions, flattened -/

/-- Column `q` of a two-column array, cut out as a one-column array and flattened, reads at `e` the array at `(e, q)`. -/
theorem column_apply (v : IVec S65536x2 32) (off : Fin S65536x2.rank → Nat) (hs : S65536x2.Slices off S65536x1)
    (q : Fin 2) (h0 : off 0 = 0) (h1 : off 1 = q.val) (e : Fin 65536) :
    shapeCast S65536 (extractStridedSlice S65536x1 off v hs) shapeCasts_S65536x1_S65536 (ix1 e) = v (ix2 e q) := by
  refine (shapeCast_apply _ shapeCasts_S65536x1_S65536 (ix1 e) (ix2 e (0 : Fin 1)) ?_).trans ?_
  · rw [Shape.rowMajor_val_two, Shape.rowMajor_val_one]
    show e.val * 1 + 0 = e.val
    omega
  · refine extractStridedSlice_apply off v hs _ (ix2 e q) fun a => ?_
    match a with
    | ⟨0, _⟩ =>
      show e.val = off 0 + e.val
      rw [h0]; omega
    | ⟨1, _⟩ =>
      show q.val = off 1 + 0
      rw [h1]; omega

/-! ### The take behind the wrap rule -/

/-- Rows of a table taken at a column of positions that went through the wrap rule: where the positions are not
    negative the wrap rule changes nothing, and entry `(e, i)` is the table at the row position `e` selects. -/
theorem take_wrap_apply (tbl : S1000000x128.Idx → EReal) (col z n : IVec S65536 32) (hz : ∀ j, z j = 0#32)
    (hcol : ∀ j, 0 ≤ (col j).toInt) (e : Fin 65536) (i : Fin 128) :
    Host.gather gather_S1000000x128_S65536x1_S65536x128_1_0_n_n_0_1_1128 tbl
        (broadcastInDim S65536x1 ![0] bcast_S65536_S65536x1_0 (select (cmpi .slt col z) (addi col n) col)) (ix2 e i)
      = tbl (ix2 (Cert.RowTake.rowOf 1000000 (by decide) (col (ix1 e))) i) := by
  refine (Cert.RowTake.gather_rows_apply (by decide) gather_S1000000x128_S65536x1_S65536x128_1_0_n_n_0_1_1128_wf tbl _ e i).trans ?_
  have hb : broadcastInDim S65536x1 ![0] bcast_S65536_S65536x1_0 (select (cmpi .slt col z) (addi col n) col) (ix2 e (0 : Fin 1))
      = col (ix1 e) := by
    refine (broadcastInDim_apply _ bcast_S65536_S65536x1_0 _ (ix2 e (0 : Fin 1)) (ix1 e) fun a => ?_).trans ?_
    · match a with
      | ⟨0, _⟩ => rfl
    · exact Cert.RowTake.wrap_of_nonneg col n z hz (ix1 e) (hcol _)
  rw [hb]

/-! ### The operations in front of the two takes, named -/

/-- The positions clipped into the table's rows: the larger of zero and the position, then the smaller of that and
    the last row. -/
def clipped (x : IVec S65536x2 32) : IVec S65536x2 32 :=
  minsi (broadcastInDim S65536x2 ![] bcast_S_S65536x2 (constantI S_ 32 999999#32))
    (maxsi (broadcastInDim S65536x2 ![] bcast_S_S65536x2 (constantI S_ 32 0#32)) x)

/-- One column of the clipped positions, cut out and flattened. -/
def column (x : IVec S65536x2 32) (off : Fin S65536x2.rank → Nat) (hs : S65536x2.Slices off S65536x1) : IVec S65536 32 :=
  shapeCast S65536 (extractStridedSlice S65536x1 off (clipped x) hs) shapeCasts_S65536x1_S65536

/-- The rows of the table taken at a column of positions behind the wrap rule. -/
def taken (tbl : S1000000x128.Idx → EReal) (col : IVec S65536 32) : S65536x128.Idx → EReal :=
  Host.gather gather_S1000000x128_S65536x1_S65536x128_1_0_n_n_0_1_1128 tbl
    (broadcastInDim S65536x1 ![0] bcast_S65536_S65536x1_0
      (select (cmpi .slt col (broadcastInDim S65536 ![] bcast_S_S65536 (constantI S_ 32 0#32)))
        (addi col (broadcastInDim S65536 ![] bcast_S_S65536 (constantI S_ 32 1000000#32))) col))

/-- Column `q` of the clipped positions at `e`: position `(e, q)`, clipped. -/
theorem column_clipped_apply (x : IVec S65536x2 32) (off : Fin S65536x2.rank → Nat) (hs : S65536x2.Slices off S65536x1)
    (q : Fin 2) (h0 : off 0 = 0) (h1 : off 1 = q.val) (e : Fin 65536) :
    column x off hs (ix1 e) = IntOp.minsi 999999#32 (IntOp.maxsi 0#32 (x (ix2 e q))) :=
  column_apply (clipped x) off hs q h0 h1 e

/-- The table's rows taken at column `q` of the clipped positions, where no position is negative: entry `(e, i)` is the
    table at the row position `(e, q)` selects. -/
theorem taken_apply (tbl : S1000000x128.Idx → EReal) (x : IVec S65536x2 32) (hx : ∀ j, 0 ≤ (x j).toInt)
    (off : Fin S65536x2.rank → Nat) (hs : S65536x2.Slices off S65536x1)
    (q : Fin 2) (h0 : off 0 = 0) (h1 : off 1 = q.val) (e : Fin 65536) (i : Fin 128) :
    taken tbl (column x off hs) (ix2 e i) = tbl (ix2 (Cert.Gnn.row x e q) i) := by
  unfold taken
  refine (take_wrap_apply tbl (column x off hs) _ _ (fun _ => rfl) (fun j => ?_) e i).trans ?_
  · obtain ⟨a, rfl⟩ : ∃ a : Fin 65536, j = ix1 a := ⟨j 0, eq_ix1 j⟩
    rw [column_clipped_apply x off hs q h0 h1 a]
    exact clip_nonneg _ (hx _)
  · rw [column_clipped_apply x off hs q h0 h1 e, rowOf_clip _ (hx _)]
    rfl

end KerHost

/-! ### The five arrays as the operations in front of the region leave them -/

namespace KerHost

/-- The first row array: the table's rows taken at column 0 of the clipped positions. -/
theorem V_v11_eq (c : Dev nD) : (V m c main_v11 : S65536x128.Idx → EReal)
      = taken (m ((c : Thread nD τ).loc main_arg1))
          (column (m ((c : Thread nD τ).loc main_arg0)) ![0, 0] slices_S65536x2_S65536x1_0_0) := by
  dsimp only [Gen.V]
  simp only [Gen.hostOps0, Gen.hostOps0_1, Gen.hostOps0_2, List.flatten_cons, List.flatten_nil, List.append_nil, List.cons_append, List.nil_append]
  after_results_simp
  simp only [StableHlo.TRef.ofBuf, StableHlo.TRef.toBuf, cast_eq, id_eq]
  rfl

/-- The second row array: the table's rows taken at column 1 of the clipped positions. -/
theorem V_v18_eq (c : Dev nD) : (V m c main_v18 : S65536x128.Idx → EReal)
      = taken (m ((c : Thread nD τ).loc main_arg1))
          (column (m ((c : Thread nD τ).loc main_arg0)) ![0, 1] slices_S65536x2_S65536x1_0_1) := by
  dsimp only [Gen.V]
  simp only [Gen.hostOps0, Gen.hostOps0_1, Gen.hostOps0_2, List.flatten_cons, List.flatten_nil, List.append_nil, List.cons_append, List.nil_append]
  after_results_simp
  simp only [StableHlo.TRef.ofBuf, StableHlo.TRef.toBuf, cast_eq, id_eq]
  rfl

/-- The first layer's weight array: the two weights summed, transposed, the float format changed. -/
theorem V_v21_eq (c : Dev nD) : (V m c main_v21 : S128x256.Idx → EReal)
      = truncf (F := Ideal) .bf16 (transpose S128x256 [1, 0] (addf (F := Ideal) (m ((c : Thread nD τ).loc main_arg2)) (m ((c : Thread nD τ).loc main_arg4))) transposes_S256x128_S128x256_1_0) bitsLt_bf16_f32 := by
  dsimp only [Gen.V]
  simp only [Gen.hostOps0, Gen.hostOps0_1, Gen.hostOps0_2, List.flatten_cons, List.flatten_nil, List.append_nil, List.cons_append, List.nil_append]
  after_results_simp

/-- The second layer's weight array: the two weights summed, transposed, the float format changed. -/
theorem V_v24_eq (c : Dev nD) : (V m c main_v24 : S256x64.Idx → EReal)
      = truncf (F := Ideal) .bf16 (transpose S256x64 [1, 0] (addf (F := Ideal) (m ((c : Thread nD τ).loc main_arg5)) (m ((c : Thread nD τ).loc main_arg7))) transposes_S64x256_S256x64_1_0) bitsLt_bf16_f32 := by
  dsimp only [Gen.V]
  simp only [Gen.hostOps0, Gen.hostOps0_1, Gen.hostOps0_2, List.flatten_cons, List.flatten_nil, List.append_nil, List.cons_append, List.nil_append]
  after_results_simp

/-- The last layer's weight array: the weight transposed, the float format changed. -/
theorem V_v26_eq (c : Dev nD) : (V m c main_v26 : S64x2.Idx → EReal)
      = truncf (F := Ideal) .bf16 (transpose S64x2 [1, 0] (m ((c : Thread nD τ).loc main_arg8)) transposes_S2x64_S64x2_1_0) bitsLt_bf16_f32 := by
  dsimp only [Gen.V]
  simp only [Gen.hostOps0, Gen.hostOps0_1, Gen.hostOps0_2, List.flatten_cons, List.flatten_nil, List.append_nil, List.cons_append, List.nil_append]
  after_results_simp

end KerHost

theorem V_v11_apply (c : Dev nD) (hx : ∀ j, 0 ≤ ((m ((c : Thread nD τ).loc main_arg0)) j).toInt) (e : Fin 65536) (i : Fin 128) :
    (V m c main_v11 : S65536x128.Idx → EReal) (ix2 e i)
      = (paramsOf m c).emb (ix2 (Cert.Gnn.row (m ((c : Thread nD τ).loc main_arg0)) e 0) i) := by
  rw [KerHost.V_v11_eq m c]
  have h0 : (![0, 0] : Fin S65536x2.rank → Nat) 0 = 0 := rfl
  have h1 : (![0, 0] : Fin S65536x2.rank → Nat) 1 = (0 : Fin 2).val := rfl
  exact KerHost.taken_apply (m ((c : Thread nD τ).loc main_arg1)) (m ((c : Thread nD τ).loc main_arg0)) hx ![0, 0]
    slices_S65536x2_S65536x1_0_0 0 h0 h1 e i

theorem V_v18_apply (c : Dev nD) (hx : ∀ j, 0 ≤ ((m ((c : Thread nD τ).loc main_arg0)) j).toInt) (e : Fin 65536) (i : Fin 128) :
    (V m c main_v18 : S65536x128.Idx → EReal) (ix2 e i)
      = (paramsOf m c).emb (ix2 (Cert.Gnn.row (m ((c : Thread nD τ).loc main_arg0)) e 1) i) := by
  rw [KerHost.V_v18_eq m c]
  have h0 : (![0, 1] : Fin S65536x2.rank → Nat) 0 = 0 := rfl
  have h1 : (![0, 1] : Fin S65536x2.rank → Nat) 1 = (1 : Fin 2).val := rfl
  exact KerHost.taken_apply (m ((c : Thread nD τ).loc main_arg1)) (m ((c : Thread nD τ).loc main_arg0)) hx ![0, 1]
    slices_S65536x2_S65536x1_0_1 1 h0 h1 e i

theorem V_v21_apply (c : Dev nD) (i : Fin 128) (j : Fin 256) :
    (V m c main_v21 : S128x256.Idx → EReal) (ix2 i j) = (paramsOf m c).W1r (ix2 j i) + (paramsOf m c).W1o (ix2 j i) := by
  rw [KerHost.V_v21_eq m c, truncf_apply]
  refine (transpose_ix2_apply _ _ i j).trans ?_
  rfl

theorem V_v24_apply (c : Dev nD) (j : Fin 256) (k : Fin 64) :
    (V m c main_v24 : S256x64.Idx → EReal) (ix2 j k) = (paramsOf m c).W2r (ix2 k j) + (paramsOf m c).W2o (ix2 k j) := by
  rw [KerHost.V_v24_eq m c, truncf_apply]
  refine (transpose_ix2_apply _ _ j k).trans ?_
  rfl

theorem V_v26_apply (c : Dev nD) (k : Fin 64) (o : Fin 2) :
    (V m c main_v26 : S64x2.Idx → EReal) (ix2 k o) = (paramsOf m c).fcW (ix2 o k) := by
  rw [KerHost.V_v26_eq m c, truncf_apply]
  exact transpose_ix2_apply _ _ k o

end Cert.KernelIdeal.GnnValue

end
-- ==== Proof.KerArray.lean ====
/-
  From blocks to the array. Grid point `t` of 16 computes rows `4096 t … 4096 t + 4095` of the 65536 × 2
  result from the same rows of the two row arrays and the whole weight and bias arrays; the sixteen blocks
  tile the array, so after the run the result array is `kerArr` of the arguments, entry by entry.
-/
import proofs.«407204_j1589137899613_3_alg».proof.Proof.Gen.KernelIdeal.Value
import proofs.«407204_j1589137899613_3_alg».proof.Proof.KerPayload
import proofs.«407204_j1589137899613_3_alg».proof.Proof.KerHost

noncomputable section

namespace Cert.KernelIdeal.GnnValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

namespace Blocks

/-- The zero offsets of a rank-two block, however spelt. -/
theorem zero_off2 : (![0, 0] : Fin 2 → Nat) = fun _ => 0 := funext fun a => by fin_cases a <;> rfl
/-- The zero offset of a rank-one block. -/
theorem zero_off1 : (![0] : Fin 1 → Nat) = fun _ => 0 := funext fun a => by fin_cases a; rfl

/-- The block index of every window at every point of the grid: the two row windows move with the result
    window along the rows, at block column 0; the weight and bias windows stay at block 0; the result window's
    block row is the point itself. -/
theorem idx_facts : ∀ t : Fin cfg0.N,
    win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-- One entry of the body's stored value is the averaged arrangement's output at the sample the block row
    stands for, once every loaded block is read as the arrays of the arrangement. -/
theorem point_eq (P : Cert.Gnn.Params) (x : IVec Cert.Gnn.SX 32) (b : Fin 65536) (p : Fin 4096) (q : Fin 2)
    (v0 v2 : Vec Ideal S4096x128 .f32) (v8 : Vec Ideal S128x256 .bf16) (v10 : Vec Ideal S256 .f32)
    (v16 : Vec Ideal S256x64 .bf16) (v18 : Vec Ideal S64 .f32) (v24 : Vec Ideal S64x2 .bf16) (v26 : Vec Ideal S2 .f32)
    (h0 : ∀ i : Fin 128, v0 (ix2 p i) = P.emb (ix2 (Cert.Gnn.row x b 0) i))
    (h2 : ∀ i : Fin 128, v2 (ix2 p i) = P.emb (ix2 (Cert.Gnn.row x b 1) i))
    (h8 : ∀ (i : Fin 128) (j : Fin 256), v8 (ix2 i j) = P.W1r (ix2 j i) + P.W1o (ix2 j i))
    (h10 : ∀ j : Fin 256, v10 (ix1 j) = P.b1 (ix1 j))
    (h16 : ∀ (j : Fin 256) (k : Fin 64), v16 (ix2 j k) = P.W2r (ix2 k j) + P.W2o (ix2 k j))
    (h18 : ∀ k : Fin 64, v18 (ix1 k) = P.b2 (ix1 k))
    (h24 : ∀ k : Fin 64, v24 (ix2 k q) = P.fcW (ix2 q k))
    (h26 : v26 (ix1 q) = P.fcb (ix1 q)) :
    k0_pay1 (F := Ideal) v0 v2 v8 v10 v16 v18 v24 v26 (ix2 p q) = Cert.Gnn.outKer P x b q := by
  rw [pay_apply]
  unfold Cert.Gnn.outKer Cert.Gnn.pooledKer Cert.Gnn.hid Cert.Gnn.mid Cert.Gnn.feat
  simp only [h0, h2, h8, h10, h16, h18, h24, h26]

/-- The grid has sixteen points. -/
theorem point_lt (t : Fin cfg0.N) : t.val < 16 := by
  have h : cfg0.N = 16 := N_0
  have := t.isLt
  omega

/-! ### Each loaded block, entry by entry, as its array read where the point's block sits -/

/-- Row `p` of the first row window's block at point `t` is row `4096 t + p` of its array. -/
theorem rows0_apply (c : Dev nD) (t : Fin cfg0.N) (p : Fin 4096) (i : Fin 128) (b : Fin 65536)
    (hb : b.val = 4096 * t.val + p.val) :
    (iblk m c 0 t : Vec Ideal S4096x128 .f32) (ix2 p i) = (V m c main_v11 : S65536x128.Idx → EReal) (ix2 b i) := by
  obtain ⟨e0, e1, -, -, -, -, -, -, -, -, -, -, -, e8, -⟩ := idx_facts t
  show (V m c main_v11 : S65536x128.Idx → EReal) (((cfg0.win 0).blk t).view.emb (ix2 p i)) = _
  refine congrArg _ (funext fun a => Fin.ext ?_)
  match a with
  | ⟨0, _⟩ => show win0_0.index t (0 : Fin 2) * 4096 + 1 * p.val = b.val; rw [e0, e8, hb]; omega
  | ⟨1, _⟩ => show win0_0.index t (1 : Fin 2) * 128 + 1 * i.val = i.val; rw [e1]; omega

/-- The same for the second row window. -/
theorem rows1_apply (c : Dev nD) (t : Fin cfg0.N) (p : Fin 4096) (i : Fin 128) (b : Fin 65536)
    (hb : b.val = 4096 * t.val + p.val) :
    (iblk m c 1 t : Vec Ideal S4096x128 .f32) (ix2 p i) = (V m c main_v18 : S65536x128.Idx → EReal) (ix2 b i) := by
  obtain ⟨-, -, e0, e1, -, -, -, -, -, -, -, -, -, e8, -⟩ := idx_facts t
  show (V m c main_v18 : S65536x128.Idx → EReal) (((cfg0.win 1).blk t).view.emb (ix2 p i)) = _
  refine congrArg _ (funext fun a => Fin.ext ?_)
  match a with
  | ⟨0, _⟩ => show win0_1.index t (0 : Fin 2) * 4096 + 1 * p.val = b.val; rw [e0, e8, hb]; omega
  | ⟨1, _⟩ => show win0_1.index t (1 : Fin 2) * 128 + 1 * i.val = i.val; rw [e1]; omega

/-- The first layer's weight window holds its whole array at every point. -/
theorem w1_apply (c : Dev nD) (t : Fin cfg0.N) (i : Fin 128) (j : Fin 256) :
    (iblk m c 2 t : Vec Ideal S128x256 .bf16) (ix2 i j) = (V m c main_v21 : S128x256.Idx → EReal) (ix2 i j) := by
  obtain ⟨-, -, -, -, e0, e1, -, -, -, -, -, -, -, -, -⟩ := idx_facts t
  show (V m c main_v21 : S128x256.Idx → EReal) (((cfg0.win 2).blk t).view.emb (ix2 i j)) = _
  refine congrArg _ (funext fun a => Fin.ext ?_)
  match a with
  | ⟨0, _⟩ => show win0_2.index t (0 : Fin 2) * 128 + 1 * i.val = i.val; rw [e0]; omega
  | ⟨1, _⟩ => show win0_2.index t (1 : Fin 2) * 256 + 1 * j.val = j.val; rw [e1]; omega

/-- The first layer's bias window holds its whole array at every point. -/
theorem b1_apply (c : Dev nD) (t : Fin cfg0.N) (j : Fin 256) :
    (iblk m c 3 t : Vec Ideal S256 .f32) (ix1 j) = (V m c main_arg3 : S256.Idx → EReal) (ix1 j) := by
  obtain ⟨-, -, -, -, -, -, e0, -, -, -, -, -, -, -, -⟩ := idx_facts t
  show (V m c main_arg3 : S256.Idx → EReal) (((cfg0.win 3).blk t).view.emb (ix1 j)) = _
  refine congrArg _ (funext fun a => Fin.ext ?_)
  match a with
  | ⟨0, _⟩ => show win0_3.index t (0 : Fin 1) * 256 + 1 * j.val = j.val; rw [e0]; omega

/-- The second layer's weight window holds its whole array at every point. -/
theorem w2_apply (c : Dev nD) (t : Fin cfg0.N) (j : Fin 256) (k : Fin 64) :
    (iblk m c 4 t : Vec Ideal S256x64 .bf16) (ix2 j k) = (V m c main_v24 : S256x64.Idx → EReal) (ix2 j k) := by
  obtain ⟨-, -, -, -, -, -, -, e0, e1, -, -, -, -, -, -⟩ := idx_facts t
  show (V m c main_v24 : S256x64.Idx → EReal) (((cfg0.win 4).blk t).view.emb (ix2 j k)) = _
  refine congrArg _ (funext fun a => Fin.ext ?_)
  match a with
  | ⟨0, _⟩ => show win0_4.index t (0 : Fin 2) * 256 + 1 * j.val = j.val; rw [e0]; omega
  | ⟨1, _⟩ => show win0_4.index t (1 : Fin 2) * 64 + 1 * k.val = k.val; rw [e1]; omega

/-- The second layer's bias window holds its whole array at every point. -/
theorem b2_apply (c : Dev nD) (t : Fin cfg0.N) (k : Fin 64) :
    (iblk m c 5 t : Vec Ideal S64 .f32) (ix1 k) = (V m c main_arg6 : S64.Idx → EReal) (ix1 k) := by
  obtain ⟨-, -, -, -, -, -, -, -, -, e0, -, -, -, -, -⟩ := idx_facts t
  show (V m c main_arg6 : S64.Idx → EReal) (((cfg0.win 5).blk t).view.emb (ix1 k)) = _
  refine congrArg _ (funext fun a => Fin.ext ?_)
  match a with
  | ⟨0, _⟩ => show win0_5.index t (0 : Fin 1) * 64 + 1 * k.val = k.val; rw [e0]; omega

/-- The last layer's weight window holds its whole array at every point. -/
theorem fcw_apply (c : Dev nD) (t : Fin cfg0.N) (k : Fin 64) (o : Fin 2) :
    (iblk m c 6 t : Vec Ideal S64x2 .bf16) (ix2 k o) = (V m c main_v26 : S64x2.Idx → EReal) (ix2 k o) := by
  obtain ⟨-, -, -, -, -, -, -, -, -, -, e0, e1, -, -, -⟩ := idx_facts t
  show (V m c main_v26 : S64x2.Idx → EReal) (((cfg0.win 6).blk t).view.emb (ix2 k o)) = _
  refine congrArg _ (funext fun a => Fin.ext ?_)
  match a with
  | ⟨0, _⟩ => show win0_6.index t (0 : Fin 2) * 64 + 1 * k.val = k.val; rw [e0]; omega
  | ⟨1, _⟩ => show win0_6.index t (1 : Fin 2) * 2 + 1 * o.val = o.val; rw [e1]; omega

/-- The last layer's bias window holds its whole array at every point. -/
theorem fcb_apply (c : Dev nD) (t : Fin cfg0.N) (o : Fin 2) :
    (iblk m c 7 t : Vec Ideal S2 .f32) (ix1 o) = (V m c main_arg9 : S2.Idx → EReal) (ix1 o) := by
  obtain ⟨-, -, -, -, -, -, -, -, -, -, -, -, e0, -, -⟩ := idx_facts t
  show (V m c main_arg9 : S2.Idx → EReal) (((cfg0.win 7).blk t).view.emb (ix1 o)) = _
  refine congrArg _ (funext fun a => Fin.ext ?_)
  match a with
  | ⟨0, _⟩ => show win0_7.index t (0 : Fin 1) * 2 + 1 * o.val = o.val; rw [e0]; omega

/-! ### The result array -/

/-- What the result array ends holding: the averaged arrangement's output of the arguments as launched. -/
abbrev outArr (c : Dev nD) : S65536x2.Idx → EReal :=
  Cert.Gnn.kerArr (paramsOf m c) (m ((c : Thread nD τ).loc main_arg0))

/-- Entry `(p, q)` of the result window's block at point `t` sits at row `4096 t + p`, column `q` of the array. -/
theorem blk_emb (t : Fin cfg0.N) (p : Fin 4096) (q : Fin 2) (b : Fin 65536) (hb : b.val = 4096 * t.val + p.val) :
    (((cfg0.win 8).blk t).view.emb (ix2 p q) : S65536x2.Idx) = ix2 b q := by
  obtain ⟨-, -, -, -, -, -, -, -, -, -, -, -, -, e0, e1⟩ := idx_facts t
  refine funext fun a => Fin.ext ?_
  match a with
  | ⟨0, _⟩ => show win0_8.index t (0 : Fin 2) * 4096 + 1 * p.val = b.val; rw [e0, hb]; omega
  | ⟨1, _⟩ => show win0_8.index t (1 : Fin 2) * 2 + 1 * q.val = q.val; rw [e1]; omega

/-- What point `t` writes back is block `t` of `outArr`. -/
theorem flushed_eq (c : Dev nD) (hx : ∀ j, 0 ≤ ((m ((c : Thread nD τ).loc main_arg0)) j).toInt) (t : Fin cfg0.N) :
    (dats m 0 c).flushed 8 t = ((cfg0.win 8).blk t).view.read (Elt Ideal) (outArr m c) := by
  rw [Value.flushed8]
  unfold out0_8
  rw [View.canon_unit_zero zero_off2]
  simp only [View.ld_unit_zero (S := S4096x128) zero_off2, View.ld_unit_zero (S := S128x256) zero_off2,
    View.ld_unit_zero (S := S256) zero_off1, View.ld_unit_zero (S := S256x64) zero_off2,
    View.ld_unit_zero (S := S64) zero_off1, View.ld_unit_zero (S := S64x2) zero_off2,
    View.ld_unit_zero (S := S2) zero_off1]
  show (k0_pay1 (F := Ideal) (iblk m c 0 t) (iblk m c 1 t) (iblk m c 2 t) (iblk m c 3 t) (iblk m c 4 t) (iblk m c 5 t)
      (iblk m c 6 t) (iblk m c 7 t) : Vec Ideal S4096x2 .f32)
    = fun j : S4096x2.Idx => outArr m c (((cfg0.win 8).blk t).view.emb j)
  funext j
  obtain ⟨p, q, rfl⟩ : ∃ (p : Fin 4096) (q : Fin 2), j = ix2 p q := ⟨j 0, j 1, eq_ix2 j⟩
  have ht := point_lt t
  have hb : (⟨4096 * t.val + p.val, by omega⟩ : Fin 65536).val = 4096 * t.val + p.val := rfl
  refine Eq.trans ?_ (congrArg (outArr m c) (blk_emb t p q _ hb).symm)
  show _ = Cert.Gnn.outKer (paramsOf m c) (m ((c : Thread nD τ).loc main_arg0)) ⟨4096 * t.val + p.val, by omega⟩ q
  exact point_eq (paramsOf m c) (m ((c : Thread nD τ).loc main_arg0)) _ p q _ _ _ _ _ _ _ _
    (fun i => (rows0_apply m c t p i _ hb).trans (V_v11_apply m c hx _ i))
    (fun i => (rows1_apply m c t p i _ hb).trans (V_v18_apply m c hx _ i))
    (fun i j => (w1_apply m c t i j).trans (V_v21_apply m c i j))
    (fun j => (b1_apply m c t j).trans (congrFun (V_main_arg3 m c) (ix1 j)))
    (fun j k => (w2_apply m c t j k).trans (V_v24_apply m c j k))
    (fun k => (b2_apply m c t k).trans (congrFun (V_main_arg6 m c) (ix1 k)))
    (fun k => (fcw_apply m c t k q).trans (V_v26_apply m c k q))
    ((fcb_apply m c t q).trans (congrFun (V_main_arg9 m c) (ix1 q)))

/-- An index of the array is in point `t`'s block iff each coordinate is in the block's range on its axis. -/
theorem mem_blk (t : Fin cfg0.N) (i : S65536x2.Idx) :
    i ∈ ((cfg0.win 8).blk t).view.set ↔ ∀ a : Fin 2, win0_8.index t a * S4096x2.size a ≤ (i a).val ∧ (i a).val < win0_8.index t a * S4096x2.size a + S4096x2.size a := by
  show i ∈ ((View.whole main_v27).slice (win0_8.rect t)).set ↔ _
  rw [View.set_slice_whole, Rect.mem_set_unit]
  exact Iff.rfl

/-- Every index of the array is in the block of the point its row falls to: row `r` is in block `r / 4096`. -/
theorem cover (i : S65536x2.Idx) : ∃ t : Fin cfg0.N, (cfg0.win 8).flush t = true ∧ i ∈ ((cfg0.win 8).blk t).view.set := by
  have hN : cfg0.N = 16 := N_0
  have hi0 : (i 0).val < 65536 := (i 0).isLt
  have hi1 : (i 1).val < 2 := (i 1).isLt
  refine ⟨⟨(i 0).val / 4096, by omega⟩, flush0_8 _, ?_⟩
  rw [mem_blk]
  obtain ⟨-, -, -, -, -, -, -, -, -, -, -, -, -, e0, e1⟩ := idx_facts ⟨(i 0).val / 4096, by omega⟩
  intro a
  match a with
  | ⟨0, _⟩ =>
    show win0_8.index ⟨(i 0).val / 4096, _⟩ (0 : Fin 2) * 4096 ≤ (i 0).val ∧ (i 0).val < win0_8.index ⟨(i 0).val / 4096, _⟩ (0 : Fin 2) * 4096 + 4096
    rw [e0]; show (i 0).val / 4096 * 4096 ≤ (i 0).val ∧ (i 0).val < (i 0).val / 4096 * 4096 + 4096; omega
  | ⟨1, _⟩ =>
    show win0_8.index ⟨(i 0).val / 4096, _⟩ (1 : Fin 2) * 2 ≤ (i 1).val ∧ (i 1).val < win0_8.index ⟨(i 0).val / 4096, _⟩ (1 : Fin 2) * 2 + 2
    rw [e1]; omega

/-- The result array after the run is `outArr`: the sixteen blocks tile it. -/
theorem final (c : Dev nD) (hx : ∀ j, 0 ≤ ((m ((c : Thread nD τ).loc main_arg0)) j).toInt) :
    (dats m 0 c).arrAt 8 cfg0.N = outArr m c :=
  (dats m 0 c).arrAt_eq_of_cover 8 (outArr m c) (fun t _ => flushed_eq m c hx t) cover

end Blocks

/-- Every weakly fair execution of the kernel's program terminates with the result array at `kerArr` of the
    arguments as launched, and the arguments unchanged. -/
theorem run (hx : ∀ (c : Dev nD) j, 0 ≤ ((m ((c : Thread nD τ).loc main_arg0)) j).toInt) :
    θ_run defs (onTc (τ := τ) (main (F := Ideal))) ⟨m, fun _ => 0, ρ⟩ fun r => ∀ c : Dev nD,
      r.2.mem ((c : Thread nD τ).loc main_v27) = Cert.Gnn.kerArr (paramsOf m c) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (Blocks.final m c (hx c)), (h c).2⟩) (Value.run_blocks m ρ)

end Cert.KernelIdeal.GnnValue

end
-- ==== Proof.RefOps.lean ====
import proofs.«407204_j1589137899613_3_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- @main's 73 operations, in order. -/
abbrev ops : List (HloOp τ sig (Elt F)) :=
  [ nullary main_c (fun i => lit0 (S2.rowMajor i)),
    nullary main_c_0 (fun i => lit1 (S2.rowMajor i)),
    nullary main_c_1 (constantI S_ 32 0#32),
    unary main_c_1 main_v0 (broadcastInDim S65536x2 ![] bcast_S_S65536x2 : (⟨S_, .i32⟩ : BufTy).Contents (Elt F) → (⟨S65536x2, .i32⟩ : BufTy).Contents (Elt F)),
    binary main_arg0 main_v0 main_v1 (cmpi .slt : (⟨S65536x2, .i32⟩ : BufTy).Contents (Elt F) → (⟨S65536x2, .i32⟩ : BufTy).Contents (Elt F) → (⟨S65536x2, .i1⟩ : BufTy).Contents (Elt F)),
    nullary main_c_2 (constantI S_ 32 1000000#32),
    unary main_c_2 main_v2 (broadcastInDim S65536x2 ![] bcast_S_S65536x2 : (⟨S_, .i32⟩ : BufTy).Contents (Elt F) → (⟨S65536x2, .i32⟩ : BufTy).Contents (Elt F)),
    binary main_arg0 main_v2 main_v3 (addi : (⟨S65536x2, .i32⟩ : BufTy).Contents (Elt F) → (⟨S65536x2, .i32⟩ : BufTy).Contents (Elt F) → (⟨S65536x2, .i32⟩ : BufTy).Contents (Elt F)),
    ternary main_v1 main_v3 main_arg0 main_v4 (select : (⟨S65536x2, .i1⟩ : BufTy).Contents (Elt F) → (⟨S65536x2, .i32⟩ : BufTy).Contents (Elt F) → (⟨S65536x2, .i32⟩ : BufTy).Contents (Elt F) → (⟨S65536x2, .i32⟩ : BufTy).Contents (Elt F)),
    unary main_v4 main_v5 (broadcastInDim S65536x2x1 ![0, 1] bcast_S65536x2_S65536x2x1_0_1 : (⟨S65536x2, .i32⟩ : BufTy).Contents (Elt F) → (⟨S65536x2x1, .i32⟩ : BufTy).Contents (Elt F)),
    binary main_arg1 main_v5 main_v6 ((fun x i => Host.gather gather_S1000000x128_S65536x2x1_S65536x2x128_2_0_n_n_0_2_1128 x i) : (⟨S1000000x128, .f32⟩ : BufTy).Contents (Elt F) → (⟨S65536x2x1, .i32⟩ : BufTy).Contents (Elt F) → (⟨S65536x2x128, .f32⟩ : BufTy).Contents (Elt F)),
    nullary main_cst (constant S_ .f32 0x00000000#32),
    unary main_cst main_v7 (broadcastInDim S65536x2x128 ![] bcast_S_S65536x2x128 : (⟨S_, .f32⟩ : BufTy).Contents (Elt F) → (⟨S65536x2x128, .f32⟩ : BufTy).Contents (Elt F)),
    nullary main_c_3 (constantI S_ 32 0#32),
    unary main_c_3 main_v8 (broadcastInDim S2 ![] bcast_S_S2 : (⟨S_, .i32⟩ : BufTy).Contents (Elt F) → (⟨S2, .i32⟩ : BufTy).Contents (Elt F)),
    binary main_c main_v8 main_v9 (cmpi .slt : (⟨S2, .i32⟩ : BufTy).Contents (Elt F) → (⟨S2, .i32⟩ : BufTy).Contents (Elt F) → (⟨S2, .i1⟩ : BufTy).Contents (Elt F)),
    nullary main_c_4 (constantI S_ 32 2#32),
    unary main_c_4 main_v10 (broadcastInDim S2 ![] bcast_S_S2 : (⟨S_, .i32⟩ : BufTy).Contents (Elt F) → (⟨S2, .i32⟩ : BufTy).Contents (Elt F)),
    binary main_c main_v10 main_v11 (addi : (⟨S2, .i32⟩ : BufTy).Contents (Elt F) → (⟨S2, .i32⟩ : BufTy).Contents (Elt F) → (⟨S2, .i32⟩ : BufTy).Contents (Elt F)),
    ternary main_v9 main_v11 main_c main_v12 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v12 main_v13 (broadcastInDim S2x1 ![0] bcast_S2_S2x1_0 : (⟨S2, .i32⟩ : BufTy).Contents (Elt F) → (⟨S2x1, .i32⟩ : BufTy).Contents (Elt F)),
    binary main_v6 main_v13 main_v14 ((fun x i => Host.gather gather_S65536x2x128_S2x1_S65536x2x128_02_1_n_n_1_1_655361128 x i) : (⟨S65536x2x128, .f32⟩ : BufTy).Contents (Elt F) → (⟨S2x1, .i32⟩ : BufTy).Contents (Elt F) → (⟨S65536x2x128, .f32⟩ : BufTy).Contents (Elt F)),
    nullary main_c_5 (constantI S_ 32 0#32),
    unary main_c_5 main_v15 (broadcastInDim S2 ![] bcast_S_S2 : (⟨S_, .i32⟩ : BufTy).Contents (Elt F) → (⟨S2, .i32⟩ : BufTy).Contents (Elt F)),
    binary main_c_0 main_v15 main_v16 (cmpi .slt : (⟨S2, .i32⟩ : BufTy).Contents (Elt F) → (⟨S2, .i32⟩ : BufTy).Contents (Elt F) → (⟨S2, .i1⟩ : BufTy).Contents (Elt F)),
    nullary main_c_6 (constantI S_ 32 2#32),
    unary main_c_6 main_v17 (broadcastInDim S2 ![] bcast_S_S2 : (⟨S_, .i32⟩ : BufTy).Contents (Elt F) → (⟨S2, .i32⟩ : BufTy).Contents (Elt F)),
    binary main_c_0 main_v17 main_v18 (addi : (⟨S2, .i32⟩ : BufTy).Contents (Elt F) → (⟨S2, .i32⟩ : BufTy).Contents (Elt F) → (⟨S2, .i32⟩ : BufTy).Contents (Elt F)),
    ternary main_v16 main_v18 main_c_0 main_v19 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v19 main_v20 (broadcastInDim S2x1 ![0] bcast_S2_S2x1_0 : (⟨S2, .i32⟩ : BufTy).Contents (Elt F) → (⟨S2x1, .i32⟩ : BufTy).Contents (Elt F)),
    ternary main_v7 main_v20 main_v14 main_v21 ((fun x i u => Host.scatterAdd scatter_S65536x2x128_S2x1_S65536x2x128_02_1_1_1 x i u) : (⟨S65536x2x128, .f32⟩ : BufTy).Contents (Elt F) → (⟨S2x1, .i32⟩ : BufTy).Contents (Elt F) → (⟨S65536x2x128, .f32⟩ : BufTy).Contents (Elt F) → (⟨S65536x2x128, .f32⟩ : BufTy).Contents (Elt F)),
    binary main_v21 main_arg2 main_v22 ((fun l r => Host.dotGeneral dot_S65536x2x128_S256x128_S65536x2x256_2_1_01_0_n_n none l r) : (⟨S65536x2x128, .f32⟩ : BufTy).Contents (Elt F) → (⟨S256x128, .f32⟩ : BufTy).Contents (Elt F) → (⟨S65536x2x256, .f32⟩ : BufTy).Contents (Elt F)),
    unary main_arg3 main_v23 (broadcastInDim S1x1x256 ![2] bcast_S256_S1x1x256_2 : (⟨S256, .f32⟩ : BufTy).Contents (Elt F) → (⟨S1x1x256, .f32⟩ : BufTy).Contents (Elt F)),
    unary main_v23 main_v24 (broadcastInDim S65536x2x256 ![0, 1, 2] bcast_S1x1x256_S65536x2x256_0_1_2 : (⟨S1x1x256, .f32⟩ : BufTy).Contents (Elt F) → (⟨S65536x2x256, .f32⟩ : BufTy).Contents (Elt F)),
    binary main_v22 main_v24 main_v25 (addf : (⟨S65536x2x256, .f32⟩ : BufTy).Contents (Elt F) → (⟨S65536x2x256, .f32⟩ : BufTy).Contents (Elt F) → (⟨S65536x2x256, .f32⟩ : BufTy).Contents (Elt F)),
    binary main_v6 main_arg4 main_v26 ((fun l r => Host.dotGeneral dot_S65536x2x128_S256x128_S65536x2x256_2_1_01_0_n_n none l r) : (⟨S65536x2x128, .f32⟩ : BufTy).Contents (Elt F) → (⟨S256x128, .f32⟩ : BufTy).Contents (Elt F) → (⟨S65536x2x256, .f32⟩ : BufTy).Contents (Elt F)),
    binary main_v25 main_v26 main_v27 (addf : (⟨S65536x2x256, .f32⟩ : BufTy).Contents (Elt F) → (⟨S65536x2x256, .f32⟩ : BufTy).Contents (Elt F) → (⟨S65536x2x256, .f32⟩ : BufTy).Contents (Elt F)),
    nullary main_cst_7 (constant S_ .f32 0x00000000#32),
    unary main_cst_7 main_v28 (broadcastInDim S65536x2x256 ![] bcast_S_S65536x2x256 : (⟨S_, .f32⟩ : BufTy).Contents (Elt F) → (⟨S65536x2x256, .f32⟩ : BufTy).Contents (Elt F)),
    nullary main_c_8 (constantI S_ 32 0#32),
    unary main_c_8 main_v29 (broadcastInDim S2 ![] bcast_S_S2 : (⟨S_, .i32⟩ : BufTy).Contents (Elt F) → (⟨S2, .i32⟩ : BufTy).Contents (Elt F)),
    binary main_c main_v29 main_v30 (cmpi .slt : (⟨S2, .i32⟩ : BufTy).Contents (Elt F) → (⟨S2, .i32⟩ : BufTy).Contents (Elt F) → (⟨S2, .i1⟩ : BufTy).Contents (Elt F)),
    nullary main_c_9 (constantI S_ 32 2#32),
    unary main_c_9 main_v31 (broadcastInDim S2 ![] bcast_S_S2 : (⟨S_, .i32⟩ : BufTy).Contents (Elt F) → (⟨S2, .i32⟩ : BufTy).Contents (Elt F)),
    binary main_c main_v31 main_v32 (addi : (⟨S2, .i32⟩ : BufTy).Contents (Elt F) → (⟨S2, .i32⟩ : BufTy).Contents (Elt F) → (⟨S2, .i32⟩ : BufTy).Contents (Elt F)),
    ternary main_v30 main_v32 main_c main_v33 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v33 main_v34 (broadcastInDim S2x1 ![0] bcast_S2_S2x1_0 : (⟨S2, .i32⟩ : BufTy).Contents (Elt F) → (⟨S2x1, .i32⟩ : BufTy).Contents (Elt F)),
    binary main_v27 main_v34 main_v35 ((fun x i => Host.gather gather_S65536x2x256_S2x1_S65536x2x256_02_1_n_n_1_1_655361256 x i) : (⟨S65536x2x256, .f32⟩ : BufTy).Contents (Elt F) → (⟨S2x1, .i32⟩ : BufTy).Contents (Elt F) → (⟨S65536x2x256, .f32⟩ : BufTy).Contents (Elt F)),
    nullary main_c_10 (constantI S_ 32 0#32),
    unary main_c_10 main_v36 (broadcastInDim S2 ![] bcast_S_S2 : (⟨S_, .i32⟩ : BufTy).Contents (Elt F) → (⟨S2, .i32⟩ : BufTy).Contents (Elt F)),
    binary main_c_0 main_v36 main_v37 (cmpi .slt : (⟨S2, .i32⟩ : BufTy).Contents (Elt F) → (⟨S2, .i32⟩ : BufTy).Contents (Elt F) → (⟨S2, .i1⟩ : BufTy).Contents (Elt F)),
    nullary main_c_11 (constantI S_ 32 2#32),
    unary main_c_11 main_v38 (broadcastInDim S2 ![] bcast_S_S2 : (⟨S_, .i32⟩ : BufTy).Contents (Elt F) → (⟨S2, .i32⟩ : BufTy).Contents (Elt F)),
    binary main_c_0 main_v38 main_v39 (addi : (⟨S2, .i32⟩ : BufTy).Contents (Elt F) → (⟨S2, .i32⟩ : BufTy).Contents (Elt F) → (⟨S2, .i32⟩ : BufTy).Contents (Elt F)),
    ternary main_v37 main_v39 main_c_0 main_v40 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v40 main_v41 (broadcastInDim S2x1 ![0] bcast_S2_S2x1_0 : (⟨S2, .i32⟩ : BufTy).Contents (Elt F) → (⟨S2x1, .i32⟩ : BufTy).Contents (Elt F)),
    ternary main_v28 main_v41 main_v35 main_v42 ((fun x i u => Host.scatterAdd scatter_S65536x2x256_S2x1_S65536x2x256_02_1_1_1 x i u) : (⟨S65536x2x256, .f32⟩ : BufTy).Contents (Elt F) → (⟨S2x1, .i32⟩ : BufTy).Contents (Elt F) → (⟨S65536x2x256, .f32⟩ : BufTy).Contents (Elt F) → (⟨S65536x2x256, .f32⟩ : BufTy).Contents (Elt F)),
    binary main_v42 main_arg5 main_v43 ((fun l r => Host.dotGeneral dot_S65536x2x256_S64x256_S65536x2x64_2_1_01_0_n_n none l r) : (⟨S65536x2x256, .f32⟩ : BufTy).Contents (Elt F) → (⟨S64x256, .f32⟩ : BufTy).Contents (Elt F) → (⟨S65536x2x64, .f32⟩ : BufTy).Contents (Elt F)),
    unary main_arg6 main_v44 (broadcastInDim S1x1x64 ![2] bcast_S64_S1x1x64_2 : (⟨S64, .f32⟩ : BufTy).Contents (Elt F) → (⟨S1x1x64, .f32⟩ : BufTy).Contents (Elt F)),
    unary main_v44 main_v45 (broadcastInDim S65536x2x64 ![0, 1, 2] bcast_S1x1x64_S65536x2x64_0_1_2 : (⟨S1x1x64, .f32⟩ : BufTy).Contents (Elt F) → (⟨S65536x2x64, .f32⟩ : BufTy).Contents (Elt F)),
    binary main_v43 main_v45 main_v46 (addf : (⟨S65536x2x64, .f32⟩ : BufTy).Contents (Elt F) → (⟨S65536x2x64, .f32⟩ : BufTy).Contents (Elt F) → (⟨S65536x2x64, .f32⟩ : BufTy).Contents (Elt F)),
    binary main_v27 main_arg7 main_v47 ((fun l r => Host.dotGeneral dot_S65536x2x256_S64x256_S65536x2x64_2_1_01_0_n_n none l r) : (⟨S65536x2x256, .f32⟩ : BufTy).Contents (Elt F) → (⟨S64x256, .f32⟩ : BufTy).Contents (Elt F) → (⟨S65536x2x64, .f32⟩ : BufTy).Contents (Elt F)),
    binary main_v46 main_v47 main_v48 (addf : (⟨S65536x2x64, .f32⟩ : BufTy).Contents (Elt F) → (⟨S65536x2x64, .f32⟩ : BufTy).Contents (Elt F) → (⟨S65536x2x64, .f32⟩ : BufTy).Contents (Elt F)),
    nullary main_cst_12 (constant S_ .f32 0x00000000#32),
    binary main_v48 main_cst_12 main_v49 ((fun x v => Host.reduceAdd x v reducesTo_S65536x2x64_S65536x64_d1 h_S_) : (⟨S65536x2x64, .f32⟩ : BufTy).Contents (Elt F) → (⟨S_, .f32⟩ : BufTy).Contents (Elt F) → (⟨S65536x64, .f32⟩ : BufTy).Contents (Elt F)),
    nullary main_cst_13 (constant S_ .f32 0x40000000#32),
    unary main_cst_13 main_v50 (broadcastInDim S65536x64 ![] bcast_S_S65536x64 : (⟨S_, .f32⟩ : BufTy).Contents (Elt F) → (⟨S65536x64, .f32⟩ : BufTy).Contents (Elt F)),
    binary main_v49 main_v50 main_v51 (Host.divf : (⟨S65536x64, .f32⟩ : BufTy).Contents (Elt F) → (⟨S65536x64, .f32⟩ : BufTy).Contents (Elt F) → (⟨S65536x64, .f32⟩ : BufTy).Contents (Elt F)),
    unary main_arg8 main_v52 ((transpose S64x2 [1, 0] · transposes_S2x64_S64x2_1_0) : (⟨S2x64, .f32⟩ : BufTy).Contents (Elt F) → (⟨S64x2, .f32⟩ : BufTy).Contents (Elt F)),
    binary main_v51 main_v52 main_v53 ((fun l r => Host.dotGeneral dot_S65536x64_S64x2_S65536x2_1_0_0_1_n_n none l r) : (⟨S65536x64, .f32⟩ : BufTy).Contents (Elt F) → (⟨S64x2, .f32⟩ : BufTy).Contents (Elt F) → (⟨S65536x2, .f32⟩ : BufTy).Contents (Elt F)),
    unary main_arg9 main_v54 (broadcastInDim S1x2 ![1] bcast_S2_S1x2_1 : (⟨S2, .f32⟩ : BufTy).Contents (Elt F) → (⟨S1x2, .f32⟩ : BufTy).Contents (Elt F)),
    unary main_v54 main_v55 (broadcastInDim S65536x2 ![0, 1] bcast_S1x2_S65536x2_0_1 : (⟨S1x2, .f32⟩ : BufTy).Contents (Elt F) → (⟨S65536x2, .f32⟩ : BufTy).Contents (Elt F)),
    binary main_v53 main_v55 main_v56 (addf : (⟨S65536x2, .f32⟩ : BufTy).Contents (Elt F) → (⟨S65536x2, .f32⟩ : BufTy).Contents (Elt F) → (⟨S65536x2, .f32⟩ : BufTy).Contents (Elt F)) ]

set_option maxRecDepth 8192 in
theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., binary_bufs_sub .., nullary_bufs_sub .., binary_bufs_sub .., nullary_bufs_sub .., unary_bufs_sub .., binary_bufs_sub .., unary_bufs_sub .., binary_bufs_sub .., unary_bufs_sub .., unary_bufs_sub .., binary_bufs_sub ..⟩

end Cert.ReferenceIdeal.RefOps

end
-- ==== Proof.RefStages.lean ====
/-
  The reference program's result as a composition of named stages, each a function of whole arrays:
  the table read at the wrapped positions (`feats`), the exchange of the two nodes (`swap128`, `swap256`:
  a take of the nodes in the order (0, 1) added into zeros at the positions (1, 0)), a layer
  (`layer1`, `layer2`: the exchanged nodes through one weight, the bias, the nodes themselves through the
  other weight), the mean over the two nodes (`pool`) and the last linear layer (`last`).
-/
import proofs.«407204_j1589137899613_3_alg».proof.Proof.Gen.ReferenceIdeal

noncomputable section

namespace Cert.ReferenceIdeal.RefValue

open Cert.ReferenceIdeal Cert.ReferenceIdeal.Gen Idealize.ShloMosaic

variable {F : FTy → Type} [FloatOps F]

/-- The position rule in front of the table read: a negative position `i` becomes `i + 1000000`. -/
def wrapPos (x : IVec S65536x2 32) : IVec S65536x2 32 :=
  select (cmpi .slt x (broadcastInDim S65536x2 ![] bcast_S_S65536x2 (constantI S_ 32 0#32)))
    (addi x (broadcastInDim S65536x2 ![] bcast_S_S65536x2 (constantI S_ 32 1000000#32))) x

/-- The two nodes' table rows of every sample. -/
def feats (x : IVec S65536x2 32) (emb : FVec F S1000000x128 .f32) : FVec F S65536x2x128 .f32 :=
  Host.gather gather_S1000000x128_S65536x2x1_S65536x2x128_2_0_n_n_0_2_1128 emb
    (broadcastInDim S65536x2x1 ![0, 1] bcast_S65536x2_S65536x2x1_0_1 (wrapPos x))

/-- A list of two node numbers as a column of positions, after the same rule (a negative `i` becomes `i + 2`). -/
def nodePos (t : IVec S2 32) : IVec S2x1 32 :=
  broadcastInDim S2x1 ![0] bcast_S2_S2x1_0
    (select (cmpi .slt t (broadcastInDim S2 ![] bcast_S_S2 (constantI S_ 32 0#32)))
      (addi t (broadcastInDim S2 ![] bcast_S_S2 (constantI S_ 32 2#32))) t)

/-- The nodes in the order (0, 1). -/
def pos01 : IVec S2x1 32 := nodePos (fun i => lit0 (S2.rowMajor i))
/-- The nodes in the order (1, 0). -/
def pos10 : IVec S2x1 32 := nodePos (fun i => lit1 (S2.rowMajor i))

/-- The two nodes exchanged: node `n`'s slot receives the other node's vector (added into zeros). -/
def swap128 (h : FVec F S65536x2x128 .f32) : FVec F S65536x2x128 .f32 :=
  Host.scatterAdd scatter_S65536x2x128_S2x1_S65536x2x128_02_1_1_1
    (broadcastInDim S65536x2x128 ![] bcast_S_S65536x2x128 (constant S_ .f32 0x00000000#32)) pos10
    (Host.gather gather_S65536x2x128_S2x1_S65536x2x128_02_1_n_n_1_1_655361128 h pos01)

/-- The same exchange at width 256. -/
def swap256 (u : FVec F S65536x2x256 .f32) : FVec F S65536x2x256 .f32 :=
  Host.scatterAdd scatter_S65536x2x256_S2x1_S65536x2x256_02_1_1_1
    (broadcastInDim S65536x2x256 ![] bcast_S_S65536x2x256 (constant S_ .f32 0x00000000#32)) pos10
    (Host.gather gather_S65536x2x256_S2x1_S65536x2x256_02_1_n_n_1_1_655361256 u pos01)

/-- First layer: the exchanged nodes through `W1r`, plus the bias, plus the nodes through `W1o`. -/
def layer1 (h : FVec F S65536x2x128 .f32) (W1r : FVec F S256x128 .f32) (b1 : FVec F S256 .f32)
    (W1o : FVec F S256x128 .f32) : FVec F S65536x2x256 .f32 :=
  addf (addf (Host.dotGeneral dot_S65536x2x128_S256x128_S65536x2x256_2_1_01_0_n_n none (swap128 h) W1r)
      (broadcastInDim S65536x2x256 ![0, 1, 2] bcast_S1x1x256_S65536x2x256_0_1_2
        (broadcastInDim S1x1x256 ![2] bcast_S256_S1x1x256_2 b1)))
    (Host.dotGeneral dot_S65536x2x128_S256x128_S65536x2x256_2_1_01_0_n_n none h W1o)

/-- Second layer, the same over width 256 into width 64. -/
def layer2 (u : FVec F S65536x2x256 .f32) (W2r : FVec F S64x256 .f32) (b2 : FVec F S64 .f32)
    (W2o : FVec F S64x256 .f32) : FVec F S65536x2x64 .f32 :=
  addf (addf (Host.dotGeneral dot_S65536x2x256_S64x256_S65536x2x64_2_1_01_0_n_n none (swap256 u) W2r)
      (broadcastInDim S65536x2x64 ![0, 1, 2] bcast_S1x1x64_S65536x2x64_0_1_2
        (broadcastInDim S1x1x64 ![2] bcast_S64_S1x1x64_2 b2)))
    (Host.dotGeneral dot_S65536x2x256_S64x256_S65536x2x64_2_1_01_0_n_n none u W2o)

/-- The mean over the two nodes: their sum (from zero) divided by two. -/
def pool (v : FVec F S65536x2x64 .f32) : FVec F S65536x64 .f32 :=
  Host.divf (Host.reduceAdd v (constant S_ .f32 0x00000000#32) reducesTo_S65536x2x64_S65536x64_d1 h_S_)
    (broadcastInDim S65536x64 ![] bcast_S_S65536x64 (constant S_ .f32 0x40000000#32))

/-- The last linear layer: the pooled vector against the transposed weight, plus the bias. -/
def last (p : FVec F S65536x64 .f32) (fcW : FVec F S2x64 .f32) (fcb : FVec F S2 .f32) : FVec F S65536x2 .f32 :=
  addf (Host.dotGeneral dot_S65536x64_S64x2_S65536x2_1_0_0_1_n_n none p
      (transpose S64x2 [1, 0] fcW transposes_S2x64_S64x2_1_0))
    (broadcastInDim S65536x2 ![0, 1] bcast_S1x2_S65536x2_0_1 (broadcastInDim S1x2 ![1] bcast_S2_S1x2_1 fcb))

/-- The whole result as a function of the ten argument arrays. -/
def result (x : IVec S65536x2 32) (emb : FVec F S1000000x128 .f32) (W1r : FVec F S256x128 .f32)
    (b1 : FVec F S256 .f32) (W1o : FVec F S256x128 .f32) (W2r : FVec F S64x256 .f32) (b2 : FVec F S64 .f32)
    (W2o : FVec F S64x256 .f32) (fcW : FVec F S2x64 .f32) (fcb : FVec F S2 .f32) : FVec F S65536x2 .f32 :=
  last (pool (layer2 (layer1 (feats x emb) W1r b1 W1o) W2r b2 W2o)) fcW fcb

end Cert.ReferenceIdeal.RefValue

end
-- ==== Proof.RefRun.lean ====
/-
  The reference program's run read back: its @main is a straight line of host operations, so every weakly
  fair execution ends, with the result buffer at the stages' composition (`RefValue.result`) of the ten
  argument arrays as launched, and the argument arrays unchanged.
-/
import proofs.«407204_j1589137899613_3_alg».proof.Proof.RefOps
import proofs.«407204_j1589137899613_3_alg».proof.Proof.RefStages

noncomputable section

namespace Cert.ReferenceIdeal.RefValue

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

set_option maxRecDepth 8192 in
set_option maxHeartbeats 4000000 in
/-- @main is the sequence of its operations. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
set_option maxHeartbeats 29200000 in
/-- On every device, from any memory with zero counters: every weakly fair execution of @main terminates
    with the result at the stages' composition of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v56) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v56).trans (by after_results_simp <;> rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp),
      (h c main_arg8).trans (by after_results_simp),
      (h c main_arg9).trans (by after_results_simp)⟩)
    (run_seq scopedRefs_eq scopedSems_eq defs main (fun _ => ops) main_eq (fun _ => ops_sub) m ρ)

end Cert.ReferenceIdeal.RefValue

end
-- ==== Proof.RefNodes.lean ====
/-
  The reference's reads and exchanges of whole rows, at an index.
  `feats` at `(b, n, i)` is the table at `(row b n, i)`: a position that is not negative passes the wrap rule
  unchanged, and the take reads the position signed and clamped into the table.
  `swap128` / `swap256` at `(b, n, i)` is the operand at `(b, other n, i)`: the take in the order (0, 1) is the
  operand itself, and adding it into zeros at the positions (1, 0) puts node `k`'s vector in slot `1 - k`; exactly
  one update lands on each element.
-/
import proofs.«407204_j1589137899613_3_alg».proof.Proof.RefStages
import proofs.«407204_j1589137899613_3_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Idealize.ShloMosaic Idealize.ShloMosaic.ValueIdx

/-! ### Two nodes taken and put back, for any batch `B` and width `C` -/

section Nodes
variable {B C w : Nat}

/-- The dimension numbers of a take of whole nodes: the node axis is indexed and dropped, the batch and width
    axes are carried over; the positions are a `2 × 1` column. -/
private abbrev takeNodesDims (B C : Nat)
    (wf : GatherDims.WF ⟨3, ![B, 2, C]⟩ ⟨2, ![2, 1]⟩ ⟨3, ![B, 2, C]⟩ [0, 2] [1] [] [1] [] 1 ![B, 1, C]) :
    GatherDims ⟨3, ![B, 2, C]⟩ ⟨2, ![2, 1]⟩ ⟨3, ![B, 2, C]⟩ where
  offsetDims := [0, 2]
  collapsedSliceDims := [1]
  operandBatchingDims := []
  startIndicesBatchingDims := []
  startIndexMap := [1]
  indexVectorDim := 1
  sliceSizes := ![B, 1, C]
  wf := wf

/-- The take at `(b, k, c)`: the operand at `(b, p, c)`, where `p` is position `k` read signed and clamped
    into `[0, 1]`. -/
private theorem takeNodes_apply {α : Type}
    (wf : GatherDims.WF ⟨3, ![B, 2, C]⟩ ⟨2, ![2, 1]⟩ ⟨3, ![B, 2, C]⟩ [0, 2] [1] [] [1] [] 1 ![B, 1, C])
    (x : (⟨3, ![B, 2, C]⟩ : Shape).Idx → α) (idx : IVec ⟨2, ![2, 1]⟩ w) (b : Fin B) (k : Fin 2) (c : Fin C) :
    Host.gather (takeNodesDims B C wf) x idx (ix3 b k c)
      = x (ix3 b (⟨min (idx (ix2 k (0 : Fin 1))).toInt.toNat 1, by omega⟩ : Fin 2) c) := by
  unfold Host.gather
  refine congrArg x ?_
  funext a
  refine Fin.ext ?_
  match a with
  | ⟨0, _⟩ =>
    show (takeNodesDims B C wf).start (ix3 b k c) idx 0 + (takeNodesDims B C wf).batchCoord (ix3 b k c) 0
      + (takeNodesDims B C wf).offCoord (ix3 b k c) 0 = b.val
    rw [GatherDims.batchCoord_eq_zero _ _ _ List.not_mem_nil]
    unfold GatherDims.start GatherDims.offCoord
    rw [dif_neg (show (0 : Fin 3) ∉ ([1] : List (Fin 3)) by decide),
      dif_pos ((GatherDims.mem_sKept _ _).mpr ⟨show (0 : Fin 3) ∉ ([1] : List (Fin 3)) by decide, List.not_mem_nil⟩),
      Nat.zero_add]
    rfl
  | ⟨1, _⟩ =>
    show (takeNodesDims B C wf).start (ix3 b k c) idx 1 + (takeNodesDims B C wf).batchCoord (ix3 b k c) 1
      + (takeNodesDims B C wf).offCoord (ix3 b k c) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (takeNodesDims B C wf).startIndexMap from List.mem_singleton.mpr rfl)]
    have hsi : (takeNodesDims B C wf).siIdx (ix3 b k c) ⟨List.idxOf (1 : Fin 3) (takeNodesDims B C wf).startIndexMap,
        List.idxOf_lt_length_iff.2 (List.mem_singleton.mpr rfl)⟩ = ix2 k (0 : Fin 1) := by
      funext e; refine Fin.ext ?_
      match e with
      | ⟨0, _⟩ => rfl
      | ⟨1, _⟩ => rfl
    rw [hsi]
    rfl
  | ⟨2, _⟩ =>
    show (takeNodesDims B C wf).start (ix3 b k c) idx 2 + (takeNodesDims B C wf).batchCoord (ix3 b k c) 2
      + (takeNodesDims B C wf).offCoord (ix3 b k c) 2 = c.val
    rw [GatherDims.batchCoord_eq_zero _ _ _ List.not_mem_nil]
    unfold GatherDims.start GatherDims.offCoord
    rw [dif_neg (show (2 : Fin 3) ∉ ([1] : List (Fin 3)) by decide),
      dif_pos ((GatherDims.mem_sKept _ _).mpr ⟨show (2 : Fin 3) ∉ ([1] : List (Fin 3)) by decide, List.not_mem_nil⟩),
      Nat.zero_add]
    rfl

/-- The dimension numbers of an addition of whole nodes into an array: the update's batch and width axes are
    its window, the node axis is inserted at the position read off a `2 × 1` column. -/
private abbrev putNodesDims (B C : Nat)
    (wf : ScatterDims.WF ⟨3, ![B, 2, C]⟩ ⟨2, ![2, 1]⟩ ⟨3, ![B, 2, C]⟩ [0, 2] [1] [1] 1) :
    ScatterDims ⟨3, ![B, 2, C]⟩ ⟨2, ![2, 1]⟩ ⟨3, ![B, 2, C]⟩ where
  updateWindowDims := [0, 2]
  insertedWindowDims := [1]
  scatterDimsToOperandDims := [1]
  indexVectorDim := 1
  wf := wf

/-- Update `(b, k, c)` lands at `(b, m, c)` when position `k`, read signed, is the node number `m`. -/
private theorem putNodes_resultIdx
    (wf : ScatterDims.WF ⟨3, ![B, 2, C]⟩ ⟨2, ![2, 1]⟩ ⟨3, ![B, 2, C]⟩ [0, 2] [1] [1] 1)
    (idx : IVec ⟨2, ![2, 1]⟩ w) (b : Fin B) (k : Fin 2) (c : Fin C) (m : Fin 2)
    (hm : (idx (ix2 k (0 : Fin 1))).toInt = (m.val : Int)) :
    (putNodesDims B C wf).resultIdx? (ix3 b k c) idx = some (ix3 b m c) := by
  have hs0 : (putNodesDims B C wf).start (ix3 b k c) idx 0 = 0 := by
    unfold ScatterDims.start
    rw [dif_neg (show (0 : Fin 3) ∉ ([1] : List (Fin 3)) by decide)]
  have hs2 : (putNodesDims B C wf).start (ix3 b k c) idx 2 = 0 := by
    unfold ScatterDims.start
    rw [dif_neg (show (2 : Fin 3) ∉ ([1] : List (Fin 3)) by decide)]
  have hs1 : (putNodesDims B C wf).start (ix3 b k c) idx 1 = (m.val : Int) := by
    unfold ScatterDims.start
    rw [dif_pos (show (1 : Fin 3) ∈ (putNodesDims B C wf).scatterDimsToOperandDims from List.mem_singleton.mpr rfl)]
    have hsi : (putNodesDims B C wf).siIdx (ix3 b k c)
        ⟨List.idxOf (1 : Fin 3) (putNodesDims B C wf).scatterDimsToOperandDims,
          List.idxOf_lt_length_iff.2 (List.mem_singleton.mpr rfl)⟩ = ix2 k (0 : Fin 1) := by
      funext e; refine Fin.ext ?_
      match e with
      | ⟨0, _⟩ => rfl
      | ⟨1, _⟩ => rfl
    rw [hsi, hm]
  have hw0 : (putNodesDims B C wf).window (ix3 b k c) 0 = b.val := rfl
  have hw1 : (putNodesDims B C wf).window (ix3 b k c) 1 = 0 := rfl
  have hw2 : (putNodesDims B C wf).window (ix3 b k c) 2 = c.val := rfl
  have hcond : ∀ a, 0 ≤ (putNodesDims B C wf).start (ix3 b k c) idx a + ((putNodesDims B C wf).window (ix3 b k c) a : Int)
      ∧ (putNodesDims B C wf).start (ix3 b k c) idx a + ((putNodesDims B C wf).window (ix3 b k c) a : Int)
        < ((⟨3, ![B, 2, C]⟩ : Shape).size a : Int) := by
    intro a
    match a with
    | ⟨0, _⟩ =>
      show 0 ≤ (putNodesDims B C wf).start (ix3 b k c) idx 0 + ((putNodesDims B C wf).window (ix3 b k c) 0 : Int)
        ∧ (putNodesDims B C wf).start (ix3 b k c) idx 0 + ((putNodesDims B C wf).window (ix3 b k c) 0 : Int) < (B : Int)
      rw [hs0, hw0]; have := b.isLt; omega
    | ⟨1, _⟩ =>
      show 0 ≤ (putNodesDims B C wf).start (ix3 b k c) idx 1 + ((putNodesDims B C wf).window (ix3 b k c) 1 : Int)
        ∧ (putNodesDims B C wf).start (ix3 b k c) idx 1 + ((putNodesDims B C wf).window (ix3 b k c) 1 : Int) < ((2 : Nat) : Int)
      rw [hs1, hw1]; have := m.isLt; omega
    | ⟨2, _⟩ =>
      show 0 ≤ (putNodesDims B C wf).start (ix3 b k c) idx 2 + ((putNodesDims B C wf).window (ix3 b k c) 2 : Int)
        ∧ (putNodesDims B C wf).start (ix3 b k c) idx 2 + ((putNodesDims B C wf).window (ix3 b k c) 2 : Int) < (C : Int)
      rw [hs2, hw2]; have := c.isLt; omega
  unfold ScatterDims.resultIdx?
  rw [dif_pos hcond]
  refine congrArg some ?_
  funext a
  refine Fin.ext ?_
  match a with
  | ⟨0, _⟩ =>
    show ((putNodesDims B C wf).start (ix3 b k c) idx 0 + ((putNodesDims B C wf).window (ix3 b k c) 0 : Int)).toNat = b.val
    rw [hs0, hw0]; omega
  | ⟨1, _⟩ =>
    show ((putNodesDims B C wf).start (ix3 b k c) idx 1 + ((putNodesDims B C wf).window (ix3 b k c) 1 : Int)).toNat = m.val
    rw [hs1, hw1]; omega
  | ⟨2, _⟩ =>
    show ((putNodesDims B C wf).start (ix3 b k c) idx 2 + ((putNodesDims B C wf).window (ix3 b k c) 2 : Int)).toNat = c.val
    rw [hs2, hw2]; omega

/-- Where the positions are the two nodes exchanged, element `(b, n, c)` of the sum is the operand's plus the
    one update `(b, other n, c)`: no other update lands there. -/
private theorem putNodes_apply
    (wf : ScatterDims.WF ⟨3, ![B, 2, C]⟩ ⟨2, ![2, 1]⟩ ⟨3, ![B, 2, C]⟩ [0, 2] [1] [1] 1)
    (x upd : (⟨3, ![B, 2, C]⟩ : Shape).Idx → EReal) (idx : IVec ⟨2, ![2, 1]⟩ w)
    (hidx : ∀ k : Fin 2, (idx (ix2 k (0 : Fin 1))).toInt = (k.rev.val : Int))
    (b : Fin B) (n : Fin 2) (c : Fin C) :
    Ideal.hostScatterAdd (putNodesDims B C wf) x idx upd (ix3 b n c) = x (ix3 b n c) + upd (ix3 b n.rev c) := by
  unfold Ideal.hostScatterAdd
  refine congrArg (x (ix3 b n c) + ·) ?_
  have key : ∀ j : (⟨3, ![B, 2, C]⟩ : Shape).Idx,
      (putNodesDims B C wf).resultIdx? j idx = some (ix3 b n c) ↔ j = ix3 b n.rev c := by
    intro j
    obtain ⟨j0, j1, j2, rfl⟩ : ∃ (j0 : Fin B) (j1 : Fin 2) (j2 : Fin C), j = ix3 j0 j1 j2 := ⟨j 0, j 1, j 2, eq_ix3 j⟩
    rw [putNodes_resultIdx wf idx j0 j1 j2 j1.rev (hidx j1)]
    constructor
    · intro h
      have h' := Option.some.inj h
      have h0 : j0 = b := congrFun h' 0
      have h1 : j1.rev = n := congrFun h' 1
      have h2 : j2 = c := congrFun h' 2
      rw [h0, h2, ← h1, Fin.rev_rev]
    · intro h
      have h0 : j0 = b := congrFun h 0
      have h1 : j1 = n.rev := congrFun h 1
      have h2 : j2 = c := congrFun h 2
      rw [h0, h1, h2, Fin.rev_rev]
  rw [Finset.sum_eq_single (ix3 b n.rev c)]
  · intro j hj hne
    exact absurd ((key j).mp (Finset.mem_filter.mp hj).2) hne
  · intro hnot
    refine absurd ?_ hnot
    rw [Finset.mem_filter]
    exact ⟨Finset.mem_univ _, (key _).mpr rfl⟩

end Nodes

/-! ### The two position columns -/

/-- The column (0, 1), read signed and clamped into `[0, 1]`, is node `k` at place `k`. -/
private theorem pos01_clamp : ∀ k : Fin 2, min (pos01 (ix2 k (0 : Fin 1))).toInt.toNat 1 = k.val := by
  decide

/-- The column (1, 0), read signed, is the other node at place `k`. -/
private theorem pos10_toInt : ∀ k : Fin 2, (pos10 (ix2 k (0 : Fin 1))).toInt = (k.rev.val : Int) := by
  decide

/-! ### The table read -/

/-- The take at `(b, n, i)` of a table of rows by a `65536 × 2 × 1` block of positions: the table at
    `(p, i)`, where `p` is position `(b, n)` read signed and clamped into the table. -/
private theorem takeRows_apply {α : Type} (x : S1000000x128.Idx → α) (idx : IVec S65536x2x1 32)
    (b : Fin 65536) (n : Fin 2) (i : Fin 128) :
    Host.gather gather_S1000000x128_S65536x2x1_S65536x2x128_2_0_n_n_0_2_1128 x idx (ix3 b n i)
      = x (ix2 (Cert.RowTake.rowOf 1000000 (by decide) (idx (ix3 b n (0 : Fin 1)))) i) := by
  unfold Host.gather
  refine congrArg x ?_
  funext a
  refine Fin.ext ?_
  match a with
  | ⟨0, _⟩ =>
    show gather_S1000000x128_S65536x2x1_S65536x2x128_2_0_n_n_0_2_1128.start (ix3 b n i) idx 0
      + gather_S1000000x128_S65536x2x1_S65536x2x128_2_0_n_n_0_2_1128.batchCoord (ix3 b n i) 0
      + gather_S1000000x128_S65536x2x1_S65536x2x128_2_0_n_n_0_2_1128.offCoord (ix3 b n i) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000000x128_S65536x2x1_S65536x2x128_2_0_n_n_0_2_1128.startIndexMap
      from List.mem_singleton.mpr rfl)]
    have hsi : gather_S1000000x128_S65536x2x1_S65536x2x128_2_0_n_n_0_2_1128.siIdx (ix3 b n i)
        ⟨List.idxOf (0 : Fin 2) gather_S1000000x128_S65536x2x1_S65536x2x128_2_0_n_n_0_2_1128.startIndexMap,
          List.idxOf_lt_length_iff.2 (List.mem_singleton.mpr rfl)⟩ = ix3 b n (0 : Fin 1) := by
      funext e; refine Fin.ext ?_
      match e with
      | ⟨0, _⟩ => rfl
      | ⟨1, _⟩ => rfl
      | ⟨2, _⟩ => rfl
    rw [hsi]
    rfl
  | ⟨1, _⟩ =>
    show gather_S1000000x128_S65536x2x1_S65536x2x128_2_0_n_n_0_2_1128.start (ix3 b n i) idx 1
      + gather_S1000000x128_S65536x2x1_S65536x2x128_2_0_n_n_0_2_1128.batchCoord (ix3 b n i) 1
      + gather_S1000000x128_S65536x2x1_S65536x2x128_2_0_n_n_0_2_1128.offCoord (ix3 b n i) 1 = i.val
    rw [GatherDims.batchCoord_eq_zero _ _ _ List.not_mem_nil]
    unfold GatherDims.start GatherDims.offCoord
    rw [dif_neg (show (1 : Fin 2) ∉ gather_S1000000x128_S65536x2x1_S65536x2x128_2_0_n_n_0_2_1128.startIndexMap
        from (by decide : (1 : Fin 2) ∉ ([0] : List (Fin 2)))),
      dif_pos ((GatherDims.mem_sKept _ _).mpr
        ⟨(by decide : (1 : Fin 2) ∉ ([0] : List (Fin 2))), List.not_mem_nil⟩),
      Nat.zero_add]
    rfl

/-- The positions as a `65536 × 2 × 1` block, at `(b, n, 0)`: position `(b, n)`. -/
private theorem posBlock_apply (p : IVec S65536x2 32) (b : Fin 65536) (n : Fin 2) :
    broadcastInDim S65536x2x1 ![0, 1] bcast_S65536x2_S65536x2x1_0_1 p (ix3 b n (0 : Fin 1)) = p (ix2 b n) := by
  unfold broadcastInDim
  refine congrArg p ?_
  funext a
  refine Fin.ext ?_
  match a with
  | ⟨0, _⟩ => rfl
  | ⟨1, _⟩ => rfl

/-! ### The three reads -/

theorem feats_apply (x : IVec S65536x2 32) (emb : FVec Ideal S1000000x128 .f32) (hx : ∀ j, 0 ≤ (x j).toInt)
    (b : Fin 65536) (n : Fin 2) (i : Fin 128) :
    feats (F := Ideal) x emb (ix3 b n i) = emb (ix2 (Cert.Gnn.row x b n) i) := by
  unfold feats
  rw [takeRows_apply]
  refine congrArg (fun p => emb (ix2 (Cert.RowTake.rowOf 1000000 (by decide) p) i)) ?_
  rw [posBlock_apply]
  exact Cert.RowTake.wrap_of_nonneg x _ _ (fun _ => rfl) (ix2 b n) (hx (ix2 b n))

theorem swap128_apply (h : FVec Ideal S65536x2x128 .f32) (b : Fin 65536) (n : Fin 2) (i : Fin 128) :
    swap128 (F := Ideal) h (ix3 b n i) = h (ix3 b n.rev i) := by
  unfold swap128 Host.scatterAdd
  rw [Ideal.hostScatterAdd_def]
  show Ideal.hostScatterAdd (putNodesDims 65536 128 scatter_S65536x2x128_S2x1_S65536x2x128_02_1_1_1_wf) _ pos10
    (Host.gather (takeNodesDims 65536 128 gather_S65536x2x128_S2x1_S65536x2x128_02_1_n_n_1_1_655361128_wf) h pos01)
    (ix3 b n i) = _
  rw [putNodes_apply _ _ _ _ pos10_toInt, takeNodes_apply]
  show Ideal.ofBits .f32 0x00000000#32 + _ = _
  rw [Ideal.ofBits_zero_f32, zero_add]
  refine congrArg h ?_
  refine congrArg (fun m => ix3 b m i) (Fin.ext ?_)
  exact pos01_clamp n.rev

theorem swap256_apply (u : FVec Ideal S65536x2x256 .f32) (b : Fin 65536) (n : Fin 2) (j : Fin 256) :
    swap256 (F := Ideal) u (ix3 b n j) = u (ix3 b n.rev j) := by
  unfold swap256 Host.scatterAdd
  rw [Ideal.hostScatterAdd_def]
  show Ideal.hostScatterAdd (putNodesDims 65536 256 scatter_S65536x2x256_S2x1_S65536x2x256_02_1_1_1_wf) _ pos10
    (Host.gather (takeNodesDims 65536 256 gather_S65536x2x256_S2x1_S65536x2x256_02_1_n_n_1_1_655361256_wf) u pos01)
    (ix3 b n j) = _
  rw [putNodes_apply _ _ _ _ pos10_toInt, takeNodes_apply]
  show Ideal.ofBits .f32 0x00000000#32 + _ = _
  rw [Ideal.ofBits_zero_f32, zero_add]
  refine congrArg u ?_
  refine congrArg (fun m => ix3 b m j) (Fin.ext ?_)
  exact pos01_clamp n.rev

end Cert.ReferenceIdeal.RefValue

end
-- ==== Proof.RefLayers.lean ====
/-
  The reference's layers, mean and last layer, at an index: each contraction as a plain sum over its one
  contracted axis, each bias read where its broadcast puts it, the mean as the sum over the two nodes
  divided by two.
-/
import proofs.«407204_j1589137899613_3_alg».proof.Proof.RefStages
import proofs.«407204_j1589137899613_3_alg».proof.Proof.Spec
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx

/-! ### The first layer's contraction: width 128 into width 256, the weight contracted on its second axis -/

theorem dot1_lhs_0 (i : S65536x2x256.Idx) (q : dot_S65536x2x128_S256x128_S65536x2x256_2_1_01_0_n_n.contr.Idx) :
    (dot_S65536x2x128_S256x128_S65536x2x256_2_1_01_0_n_n.lhsIdx i q 0).val = (i 0).val := by
  unfold DotDims.lhsIdx
  rw [dif_neg (show ¬(0 : Fin S65536x2x128.rank) ∈ dot_S65536x2x128_S256x128_S65536x2x256_2_1_01_0_n_n.lhsBatch by decide),
    dif_pos (show (0 : Fin S65536x2x128.rank) ∈ dot_S65536x2x128_S256x128_S65536x2x256_2_1_01_0_n_n.lhsNonContracting by decide)]
  rfl

theorem dot1_lhs_1 (i : S65536x2x256.Idx) (q : dot_S65536x2x128_S256x128_S65536x2x256_2_1_01_0_n_n.contr.Idx) :
    (dot_S65536x2x128_S256x128_S65536x2x256_2_1_01_0_n_n.lhsIdx i q 1).val = (i 1).val := by
  unfold DotDims.lhsIdx
  rw [dif_neg (show ¬(1 : Fin S65536x2x128.rank) ∈ dot_S65536x2x128_S256x128_S65536x2x256_2_1_01_0_n_n.lhsBatch by decide),
    dif_pos (show (1 : Fin S65536x2x128.rank) ∈ dot_S65536x2x128_S256x128_S65536x2x256_2_1_01_0_n_n.lhsNonContracting by decide)]
  rfl

theorem dot1_lhs_2 (i : S65536x2x256.Idx) (q : dot_S65536x2x128_S256x128_S65536x2x256_2_1_01_0_n_n.contr.Idx) :
    (dot_S65536x2x128_S256x128_S65536x2x256_2_1_01_0_n_n.lhsIdx i q 2).val = (q ⟨0, by decide⟩).val :=
  dot_S65536x2x128_S256x128_S65536x2x256_2_1_01_0_n_n.lhsIdx_val_of_single rfl i q

theorem dot1_rhs_0 (i : S65536x2x256.Idx) (q : dot_S65536x2x128_S256x128_S65536x2x256_2_1_01_0_n_n.contr.Idx) :
    (dot_S65536x2x128_S256x128_S65536x2x256_2_1_01_0_n_n.rhsIdx i q 0).val = (i 2).val := by
  unfold DotDims.rhsIdx
  rw [dif_neg (show ¬(0 : Fin S256x128.rank) ∈ dot_S65536x2x128_S256x128_S65536x2x256_2_1_01_0_n_n.rhsBatch by decide),
    dif_pos (show (0 : Fin S256x128.rank) ∈ dot_S65536x2x128_S256x128_S65536x2x256_2_1_01_0_n_n.rhsNonContracting by decide)]
  rfl

theorem dot1_rhs_1 (i : S65536x2x256.Idx) (q : dot_S65536x2x128_S256x128_S65536x2x256_2_1_01_0_n_n.contr.Idx) :
    (dot_S65536x2x128_S256x128_S65536x2x256_2_1_01_0_n_n.rhsIdx i q 1).val = (q ⟨0, by decide⟩).val :=
  dot_S65536x2x128_S256x128_S65536x2x256_2_1_01_0_n_n.rhsIdx_val_of_single rfl i q

/-- The first layer's contraction at an index: the sum over the 128 coordinates of the contracted axis. -/
theorem dot1_apply (A : FVec Ideal S65536x2x128 .f32) (W : FVec Ideal S256x128 .f32) (b : Fin 65536) (n : Fin 2)
    (j : Fin 256) :
    Host.dotGeneral dot_S65536x2x128_S256x128_S65536x2x256_2_1_01_0_n_n none A W (ix3 b n j)
      = ∑ i : Fin 128, A (ix3 b n i) * W (ix2 j i) := by
  simp only [Host.dotGeneral]
  rw [Ideal.dotGeneral_apply,
    ← Equiv.sum_comp (contrEquiv1 dot_S65536x2x128_S256x128_S65536x2x256_2_1_01_0_n_n 128 rfl rfl).symm]
  refine Finset.sum_congr rfl fun k _ => ?_
  have hk := contrEquiv1_symm_val dot_S65536x2x128_S256x128_S65536x2x256_2_1_01_0_n_n 128 rfl rfl k
  have el : dot_S65536x2x128_S256x128_S65536x2x256_2_1_01_0_n_n.lhsIdx (ix3 b n j)
      ((contrEquiv1 dot_S65536x2x128_S256x128_S65536x2x256_2_1_01_0_n_n 128 rfl rfl).symm k) = ix3 b n k :=
    funext fun a => Fin.ext (by
      match a with
      | ⟨0, _⟩ => exact dot1_lhs_0 _ _
      | ⟨1, _⟩ => exact dot1_lhs_1 _ _
      | ⟨2, _⟩ => exact (dot1_lhs_2 _ _).trans hk)
  have er : dot_S65536x2x128_S256x128_S65536x2x256_2_1_01_0_n_n.rhsIdx (ix3 b n j)
      ((contrEquiv1 dot_S65536x2x128_S256x128_S65536x2x256_2_1_01_0_n_n 128 rfl rfl).symm k) = ix2 j k :=
    funext fun a => Fin.ext (by
      match a with
      | ⟨0, _⟩ => exact dot1_rhs_0 _ _
      | ⟨1, _⟩ => exact (dot1_rhs_1 _ _).trans hk)
  rw [el, er]

/-- The first layer's bias where its two broadcasts put it: entry `j` at every sample and node. -/
theorem bias1_apply (b1 : FVec Ideal S256 .f32) (b : Fin 65536) (n : Fin 2) (j : Fin 256) :
    broadcastInDim S65536x2x256 ![0, 1, 2] bcast_S1x1x256_S65536x2x256_0_1_2
        (broadcastInDim S1x1x256 ![2] bcast_S256_S1x1x256_2 b1) (ix3 b n j) = b1 (ix1 j) := by
  refine (broadcastInDim_apply _ _ _ (ix3 b n j) (ix3 (0 : Fin 1) (0 : Fin 1) j) (fun a => ?_)).trans ?_
  · match a with
    | ⟨0, _⟩ => rfl
    | ⟨1, _⟩ => rfl
    | ⟨2, _⟩ => rfl
  · exact broadcastInDim_apply _ _ _ (ix3 (0 : Fin 1) (0 : Fin 1) j) (ix1 j) (fun a => by
      match a with
      | ⟨0, _⟩ => rfl)

theorem layer1_apply (h : FVec Ideal S65536x2x128 .f32) (W1r : FVec Ideal S256x128 .f32) (b1 : FVec Ideal S256 .f32)
    (W1o : FVec Ideal S256x128 .f32) (b : Fin 65536) (n : Fin 2) (j : Fin 256) :
    layer1 (F := Ideal) h W1r b1 W1o (ix3 b n j)
      = ((∑ i : Fin 128, swap128 (F := Ideal) h (ix3 b n i) * W1r (ix2 j i)) + b1 (ix1 j))
        + ∑ i : Fin 128, h (ix3 b n i) * W1o (ix2 j i) := by
  unfold layer1
  rw [addf_apply, addf_apply, dot1_apply, dot1_apply, bias1_apply]

/-! ### The second layer's contraction: width 256 into width 64, the weight contracted on its second axis -/

theorem dot2_lhs_0 (i : S65536x2x64.Idx) (q : dot_S65536x2x256_S64x256_S65536x2x64_2_1_01_0_n_n.contr.Idx) :
    (dot_S65536x2x256_S64x256_S65536x2x64_2_1_01_0_n_n.lhsIdx i q 0).val = (i 0).val := by
  unfold DotDims.lhsIdx
  rw [dif_neg (show ¬(0 : Fin S65536x2x256.rank) ∈ dot_S65536x2x256_S64x256_S65536x2x64_2_1_01_0_n_n.lhsBatch by decide),
    dif_pos (show (0 : Fin S65536x2x256.rank) ∈ dot_S65536x2x256_S64x256_S65536x2x64_2_1_01_0_n_n.lhsNonContracting by decide)]
  rfl

theorem dot2_lhs_1 (i : S65536x2x64.Idx) (q : dot_S65536x2x256_S64x256_S65536x2x64_2_1_01_0_n_n.contr.Idx) :
    (dot_S65536x2x256_S64x256_S65536x2x64_2_1_01_0_n_n.lhsIdx i q 1).val = (i 1).val := by
  unfold DotDims.lhsIdx
  rw [dif_neg (show ¬(1 : Fin S65536x2x256.rank) ∈ dot_S65536x2x256_S64x256_S65536x2x64_2_1_01_0_n_n.lhsBatch by decide),
    dif_pos (show (1 : Fin S65536x2x256.rank) ∈ dot_S65536x2x256_S64x256_S65536x2x64_2_1_01_0_n_n.lhsNonContracting by decide)]
  rfl

theorem dot2_lhs_2 (i : S65536x2x64.Idx) (q : dot_S65536x2x256_S64x256_S65536x2x64_2_1_01_0_n_n.contr.Idx) :
    (dot_S65536x2x256_S64x256_S65536x2x64_2_1_01_0_n_n.lhsIdx i q 2).val = (q ⟨0, by decide⟩).val :=
  dot_S65536x2x256_S64x256_S65536x2x64_2_1_01_0_n_n.lhsIdx_val_of_single rfl i q

theorem dot2_rhs_0 (i : S65536x2x64.Idx) (q : dot_S65536x2x256_S64x256_S65536x2x64_2_1_01_0_n_n.contr.Idx) :
    (dot_S65536x2x256_S64x256_S65536x2x64_2_1_01_0_n_n.rhsIdx i q 0).val = (i 2).val := by
  unfold DotDims.rhsIdx
  rw [dif_neg (show ¬(0 : Fin S64x256.rank) ∈ dot_S65536x2x256_S64x256_S65536x2x64_2_1_01_0_n_n.rhsBatch by decide),
    dif_pos (show (0 : Fin S64x256.rank) ∈ dot_S65536x2x256_S64x256_S65536x2x64_2_1_01_0_n_n.rhsNonContracting by decide)]
  rfl

theorem dot2_rhs_1 (i : S65536x2x64.Idx) (q : dot_S65536x2x256_S64x256_S65536x2x64_2_1_01_0_n_n.contr.Idx) :
    (dot_S65536x2x256_S64x256_S65536x2x64_2_1_01_0_n_n.rhsIdx i q 1).val = (q ⟨0, by decide⟩).val :=
  dot_S65536x2x256_S64x256_S65536x2x64_2_1_01_0_n_n.rhsIdx_val_of_single rfl i q

/-- The second layer's contraction at an index: the sum over the 256 coordinates of the contracted axis. -/
theorem dot2_apply (A : FVec Ideal S65536x2x256 .f32) (W : FVec Ideal S64x256 .f32) (b : Fin 65536) (n : Fin 2)
    (j : Fin 64) :
    Host.dotGeneral dot_S65536x2x256_S64x256_S65536x2x64_2_1_01_0_n_n none A W (ix3 b n j)
      = ∑ i : Fin 256, A (ix3 b n i) * W (ix2 j i) := by
  simp only [Host.dotGeneral]
  rw [Ideal.dotGeneral_apply,
    ← Equiv.sum_comp (contrEquiv1 dot_S65536x2x256_S64x256_S65536x2x64_2_1_01_0_n_n 256 rfl rfl).symm]
  refine Finset.sum_congr rfl fun k _ => ?_
  have hk := contrEquiv1_symm_val dot_S65536x2x256_S64x256_S65536x2x64_2_1_01_0_n_n 256 rfl rfl k
  have el : dot_S65536x2x256_S64x256_S65536x2x64_2_1_01_0_n_n.lhsIdx (ix3 b n j)
      ((contrEquiv1 dot_S65536x2x256_S64x256_S65536x2x64_2_1_01_0_n_n 256 rfl rfl).symm k) = ix3 b n k :=
    funext fun a => Fin.ext (by
      match a with
      | ⟨0, _⟩ => exact dot2_lhs_0 _ _
      | ⟨1, _⟩ => exact dot2_lhs_1 _ _
      | ⟨2, _⟩ => exact (dot2_lhs_2 _ _).trans hk)
  have er : dot_S65536x2x256_S64x256_S65536x2x64_2_1_01_0_n_n.rhsIdx (ix3 b n j)
      ((contrEquiv1 dot_S65536x2x256_S64x256_S65536x2x64_2_1_01_0_n_n 256 rfl rfl).symm k) = ix2 j k :=
    funext fun a => Fin.ext (by
      match a with
      | ⟨0, _⟩ => exact dot2_rhs_0 _ _
      | ⟨1, _⟩ => exact (dot2_rhs_1 _ _).trans hk)
  rw [el, er]

/-- The second layer's bias where its two broadcasts put it: entry `k` at every sample and node. -/
theorem bias2_apply (b2 : FVec Ideal S64 .f32) (b : Fin 65536) (n : Fin 2) (k : Fin 64) :
    broadcastInDim S65536x2x64 ![0, 1, 2] bcast_S1x1x64_S65536x2x64_0_1_2
        (broadcastInDim S1x1x64 ![2] bcast_S64_S1x1x64_2 b2) (ix3 b n k) = b2 (ix1 k) := by
  refine (broadcastInDim_apply _ _ _ (ix3 b n k) (ix3 (0 : Fin 1) (0 : Fin 1) k) (fun a => ?_)).trans ?_
  · match a with
    | ⟨0, _⟩ => rfl
    | ⟨1, _⟩ => rfl
    | ⟨2, _⟩ => rfl
  · exact broadcastInDim_apply _ _ _ (ix3 (0 : Fin 1) (0 : Fin 1) k) (ix1 k) (fun a => by
      match a with
      | ⟨0, _⟩ => rfl)

theorem layer2_apply (u : FVec Ideal S65536x2x256 .f32) (W2r : FVec Ideal S64x256 .f32) (b2 : FVec Ideal S64 .f32)
    (W2o : FVec Ideal S64x256 .f32) (b : Fin 65536) (n : Fin 2) (k : Fin 64) :
    layer2 (F := Ideal) u W2r b2 W2o (ix3 b n k)
      = ((∑ j : Fin 256, swap256 (F := Ideal) u (ix3 b n j) * W2r (ix2 k j)) + b2 (ix1 k))
        + ∑ j : Fin 256, u (ix3 b n j) * W2o (ix2 k j) := by
  unfold layer2
  rw [addf_apply, addf_apply, dot2_apply, dot2_apply, bias2_apply]

/-! ### The mean over the two nodes -/

/-- The index of node `n` above the pooled index `(b, k)`. -/
theorem pool_lift (h : Shape.Reduces S65536x2x64 [1] S65536x64) (b : Fin 65536) (k : Fin 64) (n : Fin 2) :
    h.lift (ix2 b k) n = ix3 b n k :=
  funext fun a => Fin.ext (by
    match a with
    | ⟨0, _⟩ => rfl
    | ⟨1, _⟩ => rfl
    | ⟨2, _⟩ => rfl)

theorem pool_apply (v : FVec Ideal S65536x2x64 .f32) (b : Fin 65536) (k : Fin 64) :
    pool (F := Ideal) v (ix2 b k) = Ideal.div (∑ n : Fin 2, v (ix3 b n k)) Cert.Gnn.two := by
  have hr : Shape.Reduces S65536x2x64 [1] S65536x64 := by decide
  unfold pool Host.divf Host.reduceAdd
  rw [Ideal.hostDivf_def, Ideal.hostReduceAdd_def, Ideal.hostReduceAdd_single _ hr]
  have hb : broadcastInDim S65536x64 ![] bcast_S_S65536x64 (constant (F := Ideal) S_ .f32 0x40000000#32) (ix2 b k)
      = Cert.Gnn.two :=
    (broadcastInDim_apply _ _ _ (ix2 b k) ix0 (fun a => a.elim0)).trans rfl
  rw [hb]
  have h0 : constant (F := Ideal) S_ .f32 0x00000000#32 (Shape.Idx.first h_S_) = 0 := Ideal.ofBits_zero_f32
  rw [h0, zero_add]
  exact congrArg (fun s => Ideal.div s Cert.Gnn.two)
    (Finset.sum_congr rfl fun n _ => congrArg v (pool_lift hr b k n))

/-! ### The last layer: width 64 into width 2, against the transposed weight -/

theorem dot3_lhs_0 (i : S65536x2.Idx) (q : dot_S65536x64_S64x2_S65536x2_1_0_0_1_n_n.contr.Idx) :
    (dot_S65536x64_S64x2_S65536x2_1_0_0_1_n_n.lhsIdx i q 0).val = (i 0).val := by
  unfold DotDims.lhsIdx
  rw [dif_neg (show ¬(0 : Fin S65536x64.rank) ∈ dot_S65536x64_S64x2_S65536x2_1_0_0_1_n_n.lhsBatch by decide),
    dif_pos (show (0 : Fin S65536x64.rank) ∈ dot_S65536x64_S64x2_S65536x2_1_0_0_1_n_n.lhsNonContracting by decide)]
  rfl

theorem dot3_lhs_1 (i : S65536x2.Idx) (q : dot_S65536x64_S64x2_S65536x2_1_0_0_1_n_n.contr.Idx) :
    (dot_S65536x64_S64x2_S65536x2_1_0_0_1_n_n.lhsIdx i q 1).val = (q ⟨0, by decide⟩).val :=
  dot_S65536x64_S64x2_S65536x2_1_0_0_1_n_n.lhsIdx_val_of_single rfl i q

theorem dot3_rhs_0 (i : S65536x2.Idx) (q : dot_S65536x64_S64x2_S65536x2_1_0_0_1_n_n.contr.Idx) :
    (dot_S65536x64_S64x2_S65536x2_1_0_0_1_n_n.rhsIdx i q 0).val = (q ⟨0, by decide⟩).val :=
  dot_S65536x64_S64x2_S65536x2_1_0_0_1_n_n.rhsIdx_val_of_single rfl i q

theorem dot3_rhs_1 (i : S65536x2.Idx) (q : dot_S65536x64_S64x2_S65536x2_1_0_0_1_n_n.contr.Idx) :
    (dot_S65536x64_S64x2_S65536x2_1_0_0_1_n_n.rhsIdx i q 1).val = (i 1).val := by
  unfold DotDims.rhsIdx
  rw [dif_neg (show ¬(1 : Fin S64x2.rank) ∈ dot_S65536x64_S64x2_S65536x2_1_0_0_1_n_n.rhsBatch by decide),
    dif_pos (show (1 : Fin S64x2.rank) ∈ dot_S65536x64_S64x2_S65536x2_1_0_0_1_n_n.rhsNonContracting by decide)]
  rfl

/-- The last layer's contraction at an index: the sum over the 64 coordinates of the contracted axis. -/
theorem dot3_apply (A : FVec Ideal S65536x64 .f32) (W : FVec Ideal S64x2 .f32) (b : Fin 65536) (o : Fin 2) :
    Host.dotGeneral dot_S65536x64_S64x2_S65536x2_1_0_0_1_n_n none A W (ix2 b o)
      = ∑ k : Fin 64, A (ix2 b k) * W (ix2 k o) := by
  simp only [Host.dotGeneral]
  rw [Ideal.dotGeneral_apply,
    ← Equiv.sum_comp (contrEquiv1 dot_S65536x64_S64x2_S65536x2_1_0_0_1_n_n 64 rfl rfl).symm]
  refine Finset.sum_congr rfl fun k _ => ?_
  have hk := contrEquiv1_symm_val dot_S65536x64_S64x2_S65536x2_1_0_0_1_n_n 64 rfl rfl k
  have el : dot_S65536x64_S64x2_S65536x2_1_0_0_1_n_n.lhsIdx (ix2 b o)
      ((contrEquiv1 dot_S65536x64_S64x2_S65536x2_1_0_0_1_n_n 64 rfl rfl).symm k) = ix2 b k :=
    funext fun a => Fin.ext (by
      match a with
      | ⟨0, _⟩ => exact dot3_lhs_0 _ _
      | ⟨1, _⟩ => exact (dot3_lhs_1 _ _).trans hk)
  have er : dot_S65536x64_S64x2_S65536x2_1_0_0_1_n_n.rhsIdx (ix2 b o)
      ((contrEquiv1 dot_S65536x64_S64x2_S65536x2_1_0_0_1_n_n 64 rfl rfl).symm k) = ix2 k o :=
    funext fun a => Fin.ext (by
      match a with
      | ⟨0, _⟩ => exact (dot3_rhs_0 _ _).trans hk
      | ⟨1, _⟩ => exact dot3_rhs_1 _ _)
  rw [el, er]

/-- The transposed weight at `(k, o)` is the weight at `(o, k)`. -/
theorem fcW_transpose_apply (fcW : FVec Ideal S2x64 .f32) (k : Fin 64) (o : Fin 2) :
    transpose S64x2 [1, 0] fcW transposes_S2x64_S64x2_1_0 (ix2 k o) = fcW (ix2 o k) :=
  transpose_apply _ fcW transposes_S2x64_S64x2_1_0 (ix2 k o) (ix2 o k) fun c =>
    match c with
    | ⟨0, _⟩ => rfl
    | ⟨1, _⟩ => rfl

/-- The last layer's bias where its two broadcasts put it: entry `o` at every sample. -/
theorem bias3_apply (fcb : FVec Ideal S2 .f32) (b : Fin 65536) (o : Fin 2) :
    broadcastInDim S65536x2 ![0, 1] bcast_S1x2_S65536x2_0_1 (broadcastInDim S1x2 ![1] bcast_S2_S1x2_1 fcb) (ix2 b o)
      = fcb (ix1 o) := by
  refine (broadcastInDim_apply _ _ _ (ix2 b o) (ix2 (0 : Fin 1) o) (fun a => ?_)).trans ?_
  · match a with
    | ⟨0, _⟩ => rfl
    | ⟨1, _⟩ => rfl
  · exact broadcastInDim_apply _ _ _ (ix2 (0 : Fin 1) o) (ix1 o) (fun a => by
      match a with
      | ⟨0, _⟩ => rfl)

theorem last_apply (p : FVec Ideal S65536x64 .f32) (fcW : FVec Ideal S2x64 .f32) (fcb : FVec Ideal S2 .f32)
    (b : Fin 65536) (o : Fin 2) :
    last (F := Ideal) p fcW fcb (ix2 b o) = (∑ k : Fin 64, p (ix2 b k) * fcW (ix2 o k)) + fcb (ix1 o) := by
  unfold last
  rw [addf_apply, dot3_apply, bias3_apply]
  refine congrArg (· + fcb (ix1 o)) (Finset.sum_congr rfl fun k _ => ?_)
  rw [fcW_transpose_apply]

end Cert.ReferenceIdeal.RefValue

end
-- ==== Proof.RefRead.lean ====
/-
  The reference's result, entry by entry, is the node-by-node arrangement `refArr` of the arguments: the last
  layer over the mean over the two nodes of the second layer over the first layer over the table rows,
  each stage read at an index.
-/
import proofs.«407204_j1589137899613_3_alg».proof.Proof.RefNodes
import proofs.«407204_j1589137899613_3_alg».proof.Proof.RefLayers

noncomputable section

namespace Cert.ReferenceIdeal.RefValue

open Cert.ReferenceIdeal Cert.ReferenceIdeal.Gen Idealize.ShloMosaic Idealize.ShloMosaic.ValueIdx

section
variable (x : IVec S65536x2 32) (emb : FVec Ideal S1000000x128 .f32) (W1r : FVec Ideal S256x128 .f32)
  (b1 : FVec Ideal S256 .f32) (W1o : FVec Ideal S256x128 .f32) (W2r : FVec Ideal S64x256 .f32)
  (b2 : FVec Ideal S64 .f32) (W2o : FVec Ideal S64x256 .f32) (fcW : FVec Ideal S2x64 .f32) (fcb : FVec Ideal S2 .f32)

/-- The ten arrays' float part as the shared record. -/
def paramsOfArrays : Cert.Gnn.Params := ⟨emb, W1r, b1, W1o, W2r, b2, W2o, fcW, fcb⟩

/-- The first layer at node `n` of sample `b`, over the table rows. -/
theorem layer1_eq (hx : ∀ j, 0 ≤ (x j).toInt) (b : Fin 65536) (n : Fin 2) (j : Fin 256) :
    layer1 (F := Ideal) (feats (F := Ideal) x emb) W1r b1 W1o (ix3 b n j)
      = Cert.Gnn.conv1 (paramsOfArrays emb W1r b1 W1o W2r b2 W2o fcW fcb) x b n j := by
  rw [layer1_apply]
  simp only [swap128_apply, feats_apply x emb hx]
  rfl

/-- The second layer at node `n` of sample `b`, over the first. -/
theorem layer2_eq (hx : ∀ j, 0 ≤ (x j).toInt) (b : Fin 65536) (n : Fin 2) (k : Fin 64) :
    layer2 (F := Ideal) (layer1 (F := Ideal) (feats (F := Ideal) x emb) W1r b1 W1o) W2r b2 W2o (ix3 b n k)
      = Cert.Gnn.conv2 (paramsOfArrays emb W1r b1 W1o W2r b2 W2o fcW fcb) x b n k := by
  rw [layer2_apply]
  simp only [swap256_apply, layer1_eq x emb W1r b1 W1o W2r b2 W2o fcW fcb hx]
  rfl

/-- The whole result is the node-by-node arrangement. -/
theorem result_eq_refArr (hx : ∀ j, 0 ≤ (x j).toInt) :
    result (F := Ideal) x emb W1r b1 W1o W2r b2 W2o fcW fcb
      = Cert.Gnn.refArr (paramsOfArrays emb W1r b1 W1o W2r b2 W2o fcW fcb) x := by
  funext idx
  obtain ⟨b, o, rfl⟩ : ∃ (b : Fin 65536) (o : Fin 2), idx = ix2 b o := ⟨idx 0, idx 1, eq_ix2 idx⟩
  show last (F := Ideal) (pool (F := Ideal) (layer2 (F := Ideal) (layer1 (F := Ideal) (feats (F := Ideal) x emb) W1r b1 W1o) W2r b2 W2o)) fcW fcb (ix2 b o)
    = Cert.Gnn.outRef (paramsOfArrays emb W1r b1 W1o W2r b2 W2o fcW fcb) x b o
  rw [last_apply]
  simp only [pool_apply, layer2_eq x emb W1r b1 W1o W2r b2 W2o fcW fcb hx]
  rfl

end

end Cert.ReferenceIdeal.RefValue

end
-- ==== Proof.PreFacts.lean ====
/-
  What the precondition says, read off its printed predicate: every entry of each of the nine float arrays has
  absolute value below plus infinity, so it is a real number; and every position is at least zero as a signed
  integer.
-/
import proofs.«407204_j1589137899613_3_alg».proof.Pre_finite_inputs
import proofs.«407204_j1589137899613_3_alg».proof.Proof.Gen.Pre_finite_inputs
import proofs.«407204_j1589137899613_3_alg».proof.Proof.Spec
import Idealize.ShloMosaic.Lib.ReduceAll
import Idealize.ShloMosaic.Lib.StableHlo.Predicate
import Idealize.ShloMosaic.Lib.ValueIdx

noncomputable section

namespace Cert.Gnn

open Idealize.ShloMosaic Idealize.ShloMosaic.ValueIdx

namespace PreFacts

/-- The shape of a single scalar: no axes, one index. -/
abbrev Sc : Shape := ⟨0, ![]⟩

/-- A scalar shape has exactly one index. -/
theorem subsingleton_scalar : Subsingleton Sc.Idx := ⟨fun _ _ => funext fun d => d.elim0⟩

/-- An extended real whose absolute value, taken as the larger of it and its negation, lies strictly below
    plus infinity is a real number: minus infinity has absolute value plus infinity, and so has plus infinity. -/
theorem real_of_abs_lt_top (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  induction a using EReal.rec with
  | bot => simp [Ideal.cmp] at h
  | coe r => exact ⟨r, rfl⟩
  | top => simp [Ideal.cmp] at h

/-- An array of any shape, all of whose entries have absolute value below plus infinity (the conjunction over
    every index of that comparison being true), has only real entries. -/
theorem real_of_all {S : Shape} {axes : List (Fin S.rank)} (a : S.Idx → EReal)
    (hb : Sc.BroadcastsInDim S (![] : Fin 0 → Fin S.rank)) (hr : S.ReducesTo axes Sc) (hu : 0 < Sc.numel)
    (h : Host.reduce IntOp.andi
      (cmpf (F := Ideal) (φ := .f32) .olt (Host.absf (F := Ideal) (φ := .f32) a)
        (broadcastInDim S ![] hb (constant (F := Ideal) Sc .f32 0x7F800000#32)))
      (constantI Sc 1 1#1) hr hu ix0 = 1#1) :
    ∀ i, ∃ r : ℝ, a i = (r : EReal) := by
  intro i
  haveI := subsingleton_scalar
  exact real_of_abs_lt_top (a i) (Host.reduce_andi_all _ _ hr hu ix0 h i)

/-- An array of 32-bit words, all of which compare at least zero as signed integers (the conjunction over every
    index of that comparison being true), has only nonnegative entries. -/
theorem nonneg_of_all {S : Shape} {axes : List (Fin S.rank)} (x : IVec S 32)
    (hb : Sc.BroadcastsInDim S (![] : Fin 0 → Fin S.rank)) (hr : S.ReducesTo axes Sc) (hu : 0 < Sc.numel)
    (h : Host.reduce IntOp.andi
      (cmpi .sge x (broadcastInDim S ![] hb (constantI Sc 32 0#32)))
      (constantI Sc 1 1#1) hr hu ix0 = 1#1) :
    ∀ j, 0 ≤ (x j).toInt := by
  intro j
  haveI := subsingleton_scalar
  have e : IntOp.cmpi .sge (x j) 0#32 = 1#1 := Host.reduce_andi_all _ _ hr hu ix0 h j
  exact IntOp.cmpi_sge.1 e

/-- The conjunction of two scalar truth values is true only when both are. -/
theorem andi_ix0 (a b : IVec Sc 1) (h : andi a b ix0 = 1#1) : a ix0 = 1#1 ∧ b ix0 = 1#1 :=
  IntOp.andi_eq_one.1 h

end PreFacts

open PreFacts in
/-- The predicate is a conjunction of ten scalar truth values, nested to the left: one per float array, in the
    order table, first layer (received, bias, own), second layer (received, bias, own), last layer (weights,
    bias), and last the one for the positions. Each conjunct is peeled off from the right and read back. -/
theorem decode_pre (x : IVec SX 32) (P : Params)
    (h : Cert.Pre_finite_inputs.fn (F := Ideal) x P.emb P.W1r P.b1 P.W1o P.W2r P.b2 P.W2o P.fcW P.fcb = fun _ => 1#1) :
    P.Finite ∧ ∀ j, 0 ≤ (x j).toInt := by
  have h0 := congrFun h ix0
  dsimp only [Cert.Pre_finite_inputs.fn, Cert.Pre_finite_inputs.fn_part1, Cert.Pre_finite_inputs.fn_part2] at h0
  obtain ⟨h43, hx⟩ := andi_ix0 _ _ h0
  obtain ⟨h38, hfcb⟩ := andi_ix0 _ _ h43
  obtain ⟨h33, hfcW⟩ := andi_ix0 _ _ h38
  obtain ⟨h28, hW2o⟩ := andi_ix0 _ _ h33
  obtain ⟨h23, hb2⟩ := andi_ix0 _ _ h28
  obtain ⟨h18, hW2r⟩ := andi_ix0 _ _ h23
  obtain ⟨h13, hW1o⟩ := andi_ix0 _ _ h18
  obtain ⟨h8, hb1⟩ := andi_ix0 _ _ h13
  obtain ⟨hemb, hW1r⟩ := andi_ix0 _ _ h8
  exact ⟨⟨real_of_all _ _ _ _ hemb, real_of_all _ _ _ _ hW1r, real_of_all _ _ _ _ hb1, real_of_all _ _ _ _ hW1o,
    real_of_all _ _ _ _ hW2r, real_of_all _ _ _ _ hb2, real_of_all _ _ _ _ hW2o, real_of_all _ _ _ _ hfcW,
    real_of_all _ _ _ _ hfcb⟩, nonneg_of_all _ _ _ _ hx⟩

end Cert.Gnn

end
-- ==== Proof.SpecLaw.lean ====
/-
  The two arrangements agree on finite data.
  Write `s i = u 0 i + u 1 i` for the sum of the two node vectors. A layer gives at node `n`
  `Wr · u (other n) + bias + Wo · u n`, so the sum of its two outputs is `(Wr + Wo) · s + 2 · bias`: the exchange
  only swaps the two summands. Applying this twice, the sum over the nodes of the second layer is
  `(W2r + W2o) · ((W1r + W1o) · s + 2 b1) + 2 b2`; half of it is the second summed layer applied to the first
  summed layer applied to `s / 2`. All of this is arithmetic of real numbers: the entries are real, sums and
  products of reals are real, and on reals a factor moves across a finite sum.
-/
import proofs.«407204_j1589137899613_3_alg».proof.Proof.Spec

noncomputable section

open Idealize.ShloMosaic Idealize.ShloMosaic.ValueIdx

namespace Cert.Gnn

/-! ### The two literals -/

/-- The factor one half is the real number one half. -/
theorem half_eq : half = ((1 / 2 : ℝ) : EReal) := by
  simp [half, Ideal.ofBits, Ideal.ieee, -EReal.coe_mul]; norm_num

/-- The divisor two is the real number two. -/
theorem two_eq : two = ((2 : ℝ) : EReal) := by
  simp [two, Ideal.ofBits, Ideal.ieee, -EReal.coe_mul]; norm_num

/-- A finite sum of real numbers, read in the extended reals, is the sum of the readings. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### One layer over the real numbers -/

/-- A layer at node `n`: the other node through `Wr`, the bias, the node itself through `Wo`. -/
def layerR {A B : ℕ} (u : Fin 2 → Fin A → ℝ) (Wr Wo : Fin B → Fin A → ℝ) (bias : Fin B → ℝ)
    (n : Fin 2) (j : Fin B) : ℝ :=
  ((∑ i : Fin A, u n.rev i * Wr j i) + bias j) + ∑ i : Fin A, u n i * Wo j i

/-- A layer with the summed weights over one vector. -/
def sumLayerR {A B : ℕ} (s : Fin A → ℝ) (Wr Wo : Fin B → Fin A → ℝ) (bias : Fin B → ℝ)
    (j : Fin B) : ℝ :=
  (∑ i : Fin A, s i * (Wr j i + Wo j i)) + bias j

/-- The two outputs of a layer add up to twice the summed layer of the mean vector: the exchange only swaps
    the two summands, and the bias is counted twice. -/
theorem layerR_pair {A B : ℕ} (u : Fin 2 → Fin A → ℝ) (Wr Wo : Fin B → Fin A → ℝ) (bias : Fin B → ℝ)
    (j : Fin B) :
    layerR u Wr Wo bias 0 j + layerR u Wr Wo bias 1 j
      = 2 * sumLayerR (fun i => (u 0 i + u 1 i) * (1 / 2)) Wr Wo bias j := by
  have r0 : (0 : Fin 2).rev = 1 := rfl
  have r1 : (1 : Fin 2).rev = 0 := rfl
  have h : ∑ i : Fin A, (u 0 i + u 1 i) * (1 / 2) * (Wr j i + Wo j i)
      = (1 / 2) * (((∑ i : Fin A, u 1 i * Wr j i) + ∑ i : Fin A, u 0 i * Wo j i)
          + ((∑ i : Fin A, u 0 i * Wr j i) + ∑ i : Fin A, u 1 i * Wo j i)) := by
    rw [← Finset.sum_add_distrib, ← Finset.sum_add_distrib, ← Finset.sum_add_distrib, Finset.mul_sum]
    exact Finset.sum_congr rfl fun i _ => by ring
  simp only [layerR, sumLayerR, r0, r1]
  rw [h]; ring

/-- Two layers node by node, then half the sum over the nodes, is two summed layers over the mean vector. -/
theorem two_layers {A B C : ℕ} (u : Fin 2 → Fin A → ℝ) (W1r W1o : Fin B → Fin A → ℝ) (b1 : Fin B → ℝ)
    (W2r W2o : Fin C → Fin B → ℝ) (b2 : Fin C → ℝ) (k : Fin C) :
    sumLayerR (sumLayerR (fun i => (u 0 i + u 1 i) * (1 / 2)) W1r W1o b1) W2r W2o b2 k
      = (layerR (layerR u W1r W1o b1) W2r W2o b2 0 k + layerR (layerR u W1r W1o b1) W2r W2o b2 1 k)
          * (1 / 2) := by
  have h1 : (fun j => (layerR u W1r W1o b1 0 j + layerR u W1r W1o b1 1 j) * (1 / 2))
      = sumLayerR (fun i => (u 0 i + u 1 i) * (1 / 2)) W1r W1o b1 := by
    funext j; rw [layerR_pair]; ring
  rw [layerR_pair, h1]; ring

/-! ### Reading the layers in the extended reals -/

/-- A layer over real data is the reading of the real layer. -/
theorem layer_coe {A B : ℕ} (u : Fin 2 → Fin A → ℝ) (Wr Wo : Fin B → Fin A → ℝ) (bias : Fin B → ℝ)
    (n : Fin 2) (j : Fin B) :
    ((∑ i : Fin A, (u n.rev i : EReal) * (Wr j i : EReal)) + (bias j : EReal))
        + ∑ i : Fin A, (u n i : EReal) * (Wo j i : EReal)
      = ((layerR u Wr Wo bias n j : ℝ) : EReal) := by
  simp only [layerR, EReal.coe_add, coe_sum, EReal.coe_mul]

/-- A summed layer over real data is the reading of the real summed layer. -/
theorem sumLayer_coe {A B : ℕ} (s : Fin A → ℝ) (Wr Wo : Fin B → Fin A → ℝ) (bias : Fin B → ℝ)
    (j : Fin B) :
    (∑ i : Fin A, (s i : EReal) * ((Wr j i : EReal) + (Wo j i : EReal))) + (bias j : EReal)
      = ((sumLayerR s Wr Wo bias j : ℝ) : EReal) := by
  simp only [sumLayerR, EReal.coe_add, coe_sum, EReal.coe_mul]

/-! ### The law -/

theorem outKer_eq_outRef (P : Params) (x : IVec SX 32) (hP : P.Finite) (b : Fin 65536) (o : Fin 2) :
    outKer P x b o = outRef P x b o := by
  choose e he using hP.emb
  choose w1r hw1r using hP.W1r
  choose c1 hc1 using hP.b1
  choose w1o hw1o using hP.W1o
  choose w2r hw2r using hP.W2r
  choose c2 hc2 using hP.b2
  choose w2o hw2o using hP.W2o
  -- the real data: the two node vectors, the weights as matrices, the biases as vectors
  let f : Fin 2 → Fin 128 → ℝ := fun n i => e (ix2 (row x b n) i)
  let A1r : Fin 256 → Fin 128 → ℝ := fun j i => w1r (ix2 j i)
  let A1o : Fin 256 → Fin 128 → ℝ := fun j i => w1o (ix2 j i)
  let d1 : Fin 256 → ℝ := fun j => c1 (ix1 j)
  let A2r : Fin 64 → Fin 256 → ℝ := fun k j => w2r (ix2 k j)
  let A2o : Fin 64 → Fin 256 → ℝ := fun k j => w2o (ix2 k j)
  let d2 : Fin 64 → ℝ := fun k => c2 (ix1 k)
  have hfeat : ∀ n i, feat P x b n i = (f n i : EReal) := fun n i => he _
  -- node by node
  have hconv1 : ∀ n j, conv1 P x b n j = ((layerR f A1r A1o d1 n j : ℝ) : EReal) := by
    intro n j
    unfold conv1
    simp only [hfeat, hw1r, hc1, hw1o]
    exact layer_coe f A1r A1o d1 n j
  have hconv2 : ∀ n k, conv2 P x b n k
      = ((layerR (layerR f A1r A1o d1) A2r A2o d2 n k : ℝ) : EReal) := by
    intro n k
    unfold conv2
    simp only [hconv1, hw2r, hc2, hw2o]
    exact layer_coe (layerR f A1r A1o d1) A2r A2o d2 n k
  have hpooledRef : ∀ k, pooledRef P x b k
      = (((layerR (layerR f A1r A1o d1) A2r A2o d2 0 k + layerR (layerR f A1r A1o d1) A2r A2o d2 1 k)
          * (1 / 2) : ℝ) : EReal) := by
    intro k
    unfold pooledRef
    rw [Fin.sum_univ_two, hconv2, hconv2, two_eq, Ideal.div_coe (by norm_num : (2 : ℝ) ≠ 0),
      ← EReal.coe_add, ← EReal.coe_mul]
  -- averaged first
  have hmid : ∀ i, mid P x b i = (((f 0 i + f 1 i) * (1 / 2) : ℝ) : EReal) := by
    intro i
    unfold mid
    rw [hfeat, hfeat, half_eq, ← EReal.coe_add, ← EReal.coe_mul]
  have hhid : ∀ j, hid P x b j
      = ((sumLayerR (fun i => (f 0 i + f 1 i) * (1 / 2)) A1r A1o d1 j : ℝ) : EReal) := by
    intro j
    unfold hid
    simp only [hmid, hw1r, hc1, hw1o]
    exact sumLayer_coe (fun i => (f 0 i + f 1 i) * (1 / 2)) A1r A1o d1 j
  have hpooledKer : ∀ k, pooledKer P x b k
      = ((sumLayerR (sumLayerR (fun i => (f 0 i + f 1 i) * (1 / 2)) A1r A1o d1) A2r A2o d2 k : ℝ)
          : EReal) := by
    intro k
    unfold pooledKer
    simp only [hhid, hw2r, hc2, hw2o]
    exact sumLayer_coe (sumLayerR (fun i => (f 0 i + f 1 i) * (1 / 2)) A1r A1o d1) A2r A2o d2 k
  -- the two pooled vectors agree, so the last layer gives the same output
  have hpool : ∀ k, pooledKer P x b k = pooledRef P x b k := by
    intro k
    rw [hpooledKer, hpooledRef, two_layers]
  unfold outKer outRef
  simp only [hpool]

theorem kerArr_eq_refArr (P : Params) (x : IVec SX 32) (hP : P.Finite) : kerArr P x = refArr P x :=
  funext fun idx => outKer_eq_outRef P x hP (idx 0) (idx 1)

end Cert.Gnn

end
-- ==== Proof.lean ====
/-
  The certificate's claim. The kernel reads, for each sample, the two table rows at its two positions,
  averages them, and applies two linear layers with summed weights and a last linear layer; the reference
  applies two graph-convolution layers node by node on the graph whose two edges swap the two nodes, takes
  the mean over the nodes, and applies the last layer.

  The three frames: the kernel's two programs by their launch frames, the reference by its straight-line
  run. The idealized kernel is the printed kernel read at the extended reals (no rewrite to account for).
  The values: under the precondition every float entry is a real number and every position is at least
  zero. For such a position both programs read the same table row (the position clamped into the table: the
  kernel's clip and the reference's wrap rule both leave it alone). The kernel's result array is the
  averaged-first arrangement of the arguments, the reference's the node-by-node arrangement, and on real
  data the two arrangements are one function, because the mean over the two nodes commutes with each
  affine layer and the edge swap only exchanges the two summands of the mean.
-/
import proofs.«407204_j1589137899613_3_alg».proof.Defs
import proofs.«407204_j1589137899613_3_alg».proof.Proof.Gen.Kernel
import proofs.«407204_j1589137899613_3_alg».proof.Proof.Gen.Kernel.Frame
import proofs.«407204_j1589137899613_3_alg».proof.Proof.Gen.KernelIdeal
import proofs.«407204_j1589137899613_3_alg».proof.Proof.Gen.KernelIdeal.Frame
import proofs.«407204_j1589137899613_3_alg».proof.Proof.Gen.ReferenceIdeal
import proofs.«407204_j1589137899613_3_alg».proof.Proof.Gen.Pre_finite_inputs
import proofs.«407204_j1589137899613_3_alg».proof.Proof.KerArray
import proofs.«407204_j1589137899613_3_alg».proof.Proof.RefRun
import proofs.«407204_j1589137899613_3_alg».proof.Proof.RefRead
import proofs.«407204_j1589137899613_3_alg».proof.Proof.PreFacts
import proofs.«407204_j1589137899613_3_alg».proof.Proof.SpecLaw
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Under the precondition the kernel's float arguments are real and its positions are not negative. -/
theorem pre_facts (m : (ℓ : Loc Cert.KernelIdeal.nD Cert.KernelIdeal.τ Cert.KernelIdeal.sig) → Buf (Elt Ideal) ℓ) (hpre : Cert.Pre_KernelIdeal m)
    (c : Dev Cert.KernelIdeal.nD) :
    (Cert.KernelIdeal.GnnValue.paramsOf m c).Finite ∧ ∀ j, 0 ≤ ((m ((c.tc : Thread Cert.KernelIdeal.nD Cert.KernelIdeal.τ).loc Cert.KernelIdeal.main_arg0)) j).toInt :=
  Cert.Gnn.decode_pre (m ((c.tc : Thread Cert.KernelIdeal.nD Cert.KernelIdeal.τ).loc Cert.KernelIdeal.main_arg0)) (Cert.KernelIdeal.GnnValue.paramsOf m c) (hpre c)

theorem algebraic : Cert.algebraic_KernelIdeal_ReferenceIdeal := by
  intro m ρ m' ρ' hpre hagree
  refine ⟨fun c => Cert.Gnn.kerArr (Cert.KernelIdeal.GnnValue.paramsOf m c) (m ((c.tc : Thread Cert.KernelIdeal.nD Cert.KernelIdeal.τ).loc Cert.KernelIdeal.main_arg0)),
    Cert.KernelIdeal.GnnValue.run m ρ (fun c j => (pre_facts m hpre c).2 j), ?_⟩
  refine (θ_run Cert.ReferenceIdeal.defs _ _).mono (fun _ h c => ⟨(h c).1.trans ?_, (h c).2⟩)
    (Cert.ReferenceIdeal.RefValue.run (F := Ideal) m' ρ')
  obtain ⟨h0, h1, h2, h3, h4, h5, h6, h7, h8, h9⟩ := hagree c
  rw [h0, h1, h2, h3, h4, h5, h6, h7, h8, h9]
  rw [Cert.ReferenceIdeal.RefValue.result_eq_refArr _ _ _ _ _ _ _ _ _ _ (pre_facts m hpre c).2]
  exact (Cert.Gnn.kerArr_eq_refArr _ _ (pre_facts m hpre c).1).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
